-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S1x128 : Shape := ⟨2, ![1, 128]⟩
abbrev S1 : Shape := ⟨1, ![1]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S1 .f32) (main_arg5 : FVec F S1x128 .f32) (main_arg6 : FVec F S1 .f32) (main_arg7 : FVec F S128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S1x128 .f32) (main_arg4 : FVec F S1 .f32) (main_arg5 : FVec F S1x128 .f32) (main_arg6 : FVec F S1 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S1x128 : Shape := ⟨2, ![1, 128]⟩
abbrev S1 : Shape := ⟨1, ![1]⟩
abbrev S128 : Shape := ⟨1, ![128]⟩
abbrev S128x1 : Shape := ⟨2, ![128, 1]⟩
abbrev S1x1 : Shape := ⟨2, ![1, 1]⟩
abbrev S10000x1 : Shape := ⟨2, ![10000, 1]⟩
abbrev S1x10000 : Shape := ⟨2, ![1, 10000]⟩
abbrev S2000x128 : Shape := ⟨2, ![2000, 128]⟩
abbrev S2000x1 : Shape := ⟨2, ![2000, 1]⟩
abbrev S200x10000 : Shape := ⟨2, ![200, 10000]⟩
abbrev S200x1 : Shape := ⟨2, ![200, 1]⟩
abbrev S200x128 : Shape := ⟨2, ![200, 128]⟩
abbrev S200 : Shape := ⟨1, ![200]⟩

abbrev nBuf : Space → Nat
  | .hbm => 19
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S1x128, .f32⟩
  | .hbm, ⟨4, _⟩ => ⟨S1, .f32⟩
  | .hbm, ⟨5, _⟩ => ⟨S1x128, .f32⟩
  | .hbm, ⟨6, _⟩ => ⟨S1, .f32⟩
  | .hbm, ⟨7, _⟩ => ⟨S128, .f32⟩
  | .hbm, ⟨8, _⟩ => ⟨S128x128, .f32⟩
  | .hbm, ⟨9, _⟩ => ⟨S128x1, .f32⟩
  | .hbm, ⟨10, _⟩ => ⟨S128x1, .f32⟩
  | .hbm, ⟨11, _⟩ => ⟨S1x1, .f32⟩
  | .hbm, ⟨12, _⟩ => ⟨S1x1, .f32⟩
  | .hbm, ⟨13, _⟩ => ⟨S10000x128, .f32⟩
  | .hbm, ⟨14, _⟩ => ⟨S10000x1, .f32⟩
  | .hbm, ⟨15, _⟩ => ⟨S10000x1, .f32⟩
  | .hbm, ⟨16, _⟩ => ⟨S1x10000, .f32⟩
  | .hbm, ⟨17, _⟩ => ⟨S1x128, .f32⟩
  | .hbm, ⟨18, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x1, .f32⟩
  | .local _ .vmem, ⟨4, _⟩ => ⟨S128x1, .f32⟩
  | .local _ .vmem, ⟨5, _⟩ => ⟨S1x1, .f32⟩
  | .local _ .vmem, ⟨6, _⟩ => ⟨S1x1, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S200x10000, .f32⟩
  | .local _ .vmem, ⟨14, _⟩ => ⟨S200x10000, .f32⟩
  | .local _ .vmem, ⟨15, _⟩ => ⟨S200x1, .f32⟩
  | .local _ .vmem, ⟨16, _⟩ => ⟨S200x1, .f32⟩
  | .local _ .vmem, ⟨17, _⟩ => ⟨S1x10000, .f32⟩
  | .local _ .vmem, ⟨18, _⟩ => ⟨S10000x128, .f32⟩
  | .local _ .vmem, ⟨19, _⟩ => ⟨S1x128, .f32⟩
  | .local _ .vmem, ⟨20, _⟩ => ⟨S200x128, .f32⟩
  | .local _ .vmem, ⟨21, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5_0 : Ref sig .tc := ⟨.hbm, 13, rfl⟩
abbrev main_call0_v5_1 : Ref sig .tc := ⟨.hbm, 14, rfl⟩
abbrev main_call0_v5_2 : Ref sig .tc := ⟨.hbm, 15, rfl⟩
abbrev main_call0_v6 : Ref sig .tc := ⟨.hbm, 16, rfl⟩
abbrev main_call0_v7 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x10000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S128x128_S128x128_1_0 : S128x128.Transposes [1, 0] S128x128
  transposes_S1x128_S128x1_1_0 : S1x128.Transposes [1, 0] S128x1
  shapeCasts_S1_S1x1 : S1.ShapeCasts S1x1
  shapeCasts_S10000x1_S1x10000 : S10000x1.ShapeCasts S1x10000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S200x1_S200x10000 : S200x1.Broadcasts S200x10000
  broadcasts_S1x10000_S200x10000 : S1x10000.Broadcasts S200x10000
  inb_S200x10000_S200x10000_0_0 : ∀ a, (![0, 0] : Fin 2 → Nat) a + S200x10000.size a ≤ S200x10000.size a
  h_S200x10000 : 0 < S200x10000.numel
  reduces_S200x10000_S200 : S200x10000.Reduces [1] S200
  shapeCasts_S200_S200x1 : S200.ShapeCasts S200x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S200x1_S200x128 : S200x1.Broadcasts S200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S10000x128.size a
  hwx0_6 : ∀ i : grid0.Coords, EltTy.bits .f32 = 32 ∨ (Rect.block (s := S10000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S10000x1.size a
  hwx0_7 : ∀ i : grid0.Coords, EltTy.bits .f32 = 32 ∨ (Rect.block (s := S10000x1) S2000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x1.size a ≤ S10000x1.size a
  hwx0_8 : ∀ i : grid0.Coords, EltTy.bits .f32 = 32 ∨ (Rect.block (s := S10000x1) S2000x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x1.size a ≤ S10000x1.size a
  hwx1_1 : ∀ i : grid1.Coords, EltTy.bits .f32 = 32 ∨ (Rect.block (s := S10000x1) S200x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10000.size a ≤ S1x10000.size a
  hwx1_2 : ∀ i : grid1.Coords, EltTy.bits .f32 = 32 ∨ (Rect.block (s := S1x10000) S1x10000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S10000x128.size a
  hwx1_3 : ∀ i : grid1.Coords, EltTy.bits .f32 = 32 ∨ (Rect.block (s := S10000x128) S10000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x128.size a ≤ S10000x128.size a
  hwx1_5 : ∀ i : grid1.Coords, EltTy.bits .f32 = 32 ∨ (Rect.block (s := S10000x128) S200x128.size (cc1_transform_5 i) (hinb1_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v5_1) S2000x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v5_2) S2000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v5_1) S200x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v6) S1x10000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v5_0) S10000x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S200x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S1x128 : Shape := ⟨2, ![1, 128]⟩
abbrev S1 : Shape := ⟨1, ![1]⟩
abbrev S128 : Shape := ⟨1, ![128]⟩
abbrev S128x1 : Shape := ⟨2, ![128, 1]⟩
abbrev S10000x1 : Shape := ⟨2, ![10000, 1]⟩
abbrev S1x1 : Shape := ⟨2, ![1, 1]⟩
abbrev S_ : Shape := ⟨0, ![]⟩
abbrev S1x10000 : Shape := ⟨2, ![1, 10000]⟩
abbrev S10000 : Shape := ⟨1, ![10000]⟩

abbrev nBuf : Space → Nat
  | .hbm => 71
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S1x128, .f32⟩
  | .hbm, ⟨4, _⟩ => ⟨S1, .f32⟩
  | .hbm, ⟨5, _⟩ => ⟨S1x128, .f32⟩
  | .hbm, ⟨6, _⟩ => ⟨S1, .f32⟩
  | .hbm, ⟨7, _⟩ => ⟨S128, .f32⟩
  | .hbm, ⟨8, _⟩ => ⟨S128x128, .f32⟩
  | .hbm, ⟨9, _⟩ => ⟨S10000x128, .f32⟩
  | .hbm, ⟨10, _⟩ => ⟨S128x1, .f32⟩
  | .hbm, ⟨11, _⟩ => ⟨S10000x1, .f32⟩
  | .hbm, ⟨12, _⟩ => ⟨S1x1, .f32⟩
  | .hbm, ⟨13, _⟩ => ⟨S10000x1, .f32⟩
  | .hbm, ⟨14, _⟩ => ⟨S10000x1, .f32⟩
  | .hbm, ⟨15, _⟩ => ⟨S128x1, .f32⟩
  | .hbm, ⟨16, _⟩ => ⟨S10000x1, .f32⟩
  | .hbm, ⟨17, _⟩ => ⟨S1x1, .f32⟩
  | .hbm, ⟨18, _⟩ => ⟨S10000x1, .f32⟩
  | .hbm, ⟨19, _⟩ => ⟨S10000x1, .f32⟩
  | .hbm, ⟨20, _⟩ => ⟨S_, .f32⟩
  | .hbm, ⟨21, _⟩ => ⟨S10000x10000, .f32⟩
  | .hbm, ⟨22, _⟩ => ⟨S10000x10000, .f32⟩
  | .hbm, ⟨23, _⟩ => ⟨S_, .f32⟩
  | .hbm, ⟨24, _⟩ => ⟨S10000x10000, .f32⟩
  | .hbm, ⟨25, _⟩ => ⟨S10000x10000, .f32⟩
  | .hbm, ⟨26, _⟩ => ⟨S1x10000, .f32⟩
  | .hbm, ⟨27, _⟩ => ⟨S10000x10000, .f32⟩
  | .hbm, ⟨28, _⟩ => ⟨S10000x10000, .f32⟩
  | .hbm, ⟨29, _⟩ => ⟨S10000x10000, .f32⟩
  | .hbm, ⟨30, _⟩ => ⟨S_, .f32⟩
  | .hbm, ⟨31, _⟩ => ⟨S10000x10000, .f32⟩
  | .hbm, ⟨32, _⟩ => ⟨S10000x10000, .i1⟩
  | .hbm, ⟨33, _⟩ => ⟨S_, .f32⟩
  | .hbm, ⟨34, _⟩ => ⟨S10000x10000, .f32⟩
  | .hbm, ⟨35, _⟩ => ⟨S10000x10000, .f32⟩
  | .hbm, ⟨36, _⟩ => ⟨S10000x10000, .f32⟩
  | .hbm, ⟨37, _⟩ => ⟨S10000x10000, .f32⟩
  | .hbm, ⟨38, _⟩ => ⟨S_, .f32⟩
  | .hbm, ⟨39, _⟩ => ⟨S10000, .f32⟩
  | .hbm, ⟨40, _⟩ => ⟨S_, .f32⟩
  | .hbm, ⟨41, _⟩ => ⟨S10000, .f32⟩
  | .hbm, ⟨42, _⟩ => ⟨S10000, .f32⟩
  | .hbm, ⟨43, _⟩ => ⟨S10000x1, .f32⟩
  | .hbm, ⟨44, _⟩ => ⟨S10000x10000, .f32⟩
  | .hbm, ⟨45, _⟩ => ⟨S10000x10000, .f32⟩
  | .hbm, ⟨46, _⟩ => ⟨S10000x10000, .f32⟩
  | .hbm, ⟨47, _⟩ => ⟨S_, .f32⟩
  | .hbm, ⟨48, _⟩ => ⟨S10000, .f32⟩
  | .hbm, ⟨49, _⟩ => ⟨S10000x1, .f32⟩
  | .hbm, ⟨50, _⟩ => ⟨S10000x10000, .f32⟩
  | .hbm, ⟨51, _⟩ => ⟨S10000x10000, .f32⟩
  | .hbm, ⟨52, _⟩ => ⟨S10000x128, .f32⟩
  | .hbm, ⟨53, _⟩ => ⟨S1x128, .f32⟩
  | .hbm, ⟨54, _⟩ => ⟨S10000x128, .f32⟩
  | .hbm, ⟨55, _⟩ => ⟨S10000x128, .f32⟩
  | .hbm, ⟨56, _⟩ => ⟨S_, .f32⟩
  | .hbm, ⟨57, _⟩ => ⟨S10000x128, .f32⟩
  | .hbm, ⟨58, _⟩ => ⟨S10000x128, .i1⟩
  | .hbm, ⟨59, _⟩ => ⟨S_, .f32⟩
  | .hbm, ⟨60, _⟩ => ⟨S10000x128, .f32⟩
  | .hbm, ⟨61, _⟩ => ⟨S10000x128, .i1⟩
  | .hbm, ⟨62, _⟩ => ⟨S_, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S_, .f32⟩
  | .hbm, ⟨68, _⟩ => ⟨S10000x128, .f32⟩
  | .hbm, ⟨69, _⟩ => ⟨S10000x128, .f32⟩
  | .hbm, ⟨70, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_cst_1 : Ref sig .tc := ⟨.hbm, 62, rfl⟩
abbrev main_call1_call0_v0 : Ref sig .tc := ⟨.hbm, 63, rfl⟩
abbrev main_call1_call0_v1 : Ref sig .tc := ⟨.hbm, 64, rfl⟩
abbrev main_call1_v4 : Ref sig .tc := ⟨.hbm, 65, rfl⟩
abbrev main_call1_v5 : Ref sig .tc := ⟨.hbm, 66, rfl⟩
abbrev main_call1_cst_2 : Ref sig .tc := ⟨.hbm, 67, rfl⟩
abbrev main_call1_v6 : Ref sig .tc := ⟨.hbm, 68, rfl⟩
abbrev main_call1_v7 : Ref sig .tc := ⟨.hbm, 69, rfl⟩
abbrev main_v41 : Ref sig .tc := ⟨.hbm, 70, rfl⟩

abbrev nD : Nat := 1
abbrev τ : Topo := Topo.v7x

variable {F : FTy → Type} [FloatOps F]

class Facts₀ : Prop where
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x10000 : S_.BroadcastsInDim S10000x10000 (![] : Fin 0 → Fin S10000x10000.rank)
  transposes_S10000x1_S1x10000_1_0 : S10000x1.Transposes [1, 0] S1x10000
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.AttnSpec.lean ====
/-
  The graph-attention head both programs compute, written once on the extended reals, entry by entry.

  With `feat : [n, 128]`, `W : [128, 128]`, `a_l, a_r : [1, 128]`, `b_l, b_r : [1]`, `adj : [n, n]`, `bias : [128]`
  (n = 10000):
    seq i d   = ∑ k, feat i k · W d k                     (the projected features, feat · Wᵀ)
    f₁ i      = ∑ d, seq i d · a_l d + b_l,   f₂ j = ∑ d, seq j d · a_r d + b_r
    l i j     = f₁ i + f₂ j                               (the logit of the edge i → j)
    x i j     = leaky(l i j) shifted down by 10⁹ · (1 − adj i j)   (a non-edge is pushed far below every edge)
    e i j     = exp (x i j − max_j x i j),   s i = ∑ j, e i j
    o i d     = (∑ j, e i j · seq j d) / s i + bias d      (the softmax-weighted mean of the neighbours' features)
    out i d   = o i d if o i d > 0, else exp (o i d) − 1   (elu)

  The two programs spell three steps differently, and both spellings are stated here, each in the form its program's
  operations have when read at one entry:
    • the leaky slope: `max l (c·l)` against `if l > 0 then l else c·l`, and the mask subtracted as `− big · (1 − adj)`
      against added as `+ (−big) · (1 − adj)`  (`xK` / `xR`);
    • the softmax quotient taken after the weighted sum, `(∑ e·seq) / s`, against before it, `∑ (e / s)·seq`
      (`aggK` / `aggR`; the second also carries the reduction's starting values as the host writes them);
    • elu's negative branch `exp (min o 0) − 1` against `1 · (exp (if o > 0 then 0 else o) − 1)`  (`eluK` / `eluR`).
  The float literals stay the bit patterns both programs print; the module that proves the two spellings equal reads them.
-/
import Idealize.ShloMosaic.PureOps.Ideal
import Idealize.ShloMosaic.Lib.ValueIdx

noncomputable section

open scoped BigOperators

namespace Cert.AttnSpec

open Idealize.ShloMosaic Idealize.ShloMosaic.ValueIdx

/-- A rank-2 array of extended reals, and a rank-1 one. -/
abbrev A2 (n0 n1 : Nat) : Type := (⟨2, ![n0, n1]⟩ : Shape).Idx → EReal
abbrev A1 (n : Nat) : Type := (⟨1, ![n]⟩ : Shape).Idx → EReal

/-- The literals, as the bit patterns both programs print: 0, 1, the leaky slope 0.2 (as an f32), 10⁹, −10⁹, −∞. -/
abbrev z0 : EReal := Ideal.ofBits .f32 0x00000000#32
abbrev one : EReal := Ideal.ofBits .f32 0x3F800000#32
abbrev leak : EReal := Ideal.ofBits .f32 0x3E4CCCCD#32
abbrev big : EReal := Ideal.ofBits .f32 0x4E6E6B28#32
abbrev nbig : EReal := Ideal.ofBits .f32 0xCE6E6B28#32
abbrev ninf : EReal := Ideal.ofBits .f32 0xFF800000#32

/-- The projected features: row `i` of `feat` against row `d` of `W`. -/
def proj (feat : Fin 10000 → Fin 128 → EReal) (W : Fin 128 → Fin 128 → EReal) (i : Fin 10000) (d : Fin 128) : EReal :=
  ∑ k : Fin 128, feat i k * W d k

/-- One attention score per node: the projected row against the attention vector, plus its bias. -/
def score (sq : Fin 10000 → Fin 128 → EReal) (a : Fin 128 → EReal) (b : EReal) (i : Fin 10000) : EReal :=
  (∑ d : Fin 128, sq i d * a d) + b

/-- The masked leaky logit, as the kernel writes it. -/
def xK (f1 f2 : Fin 10000 → EReal) (adj : Fin 10000 → Fin 10000 → EReal) (i j : Fin 10000) : EReal :=
  max (f1 i + f2 j) (leak * (f1 i + f2 j)) - big * (one - adj i j)

/-- The masked leaky logit, as the reference writes it. -/
def xR (f1 f2 : Fin 10000 → EReal) (adj : Fin 10000 → Fin 10000 → EReal) (i j : Fin 10000) : EReal :=
  Scalar.select (Ideal.cmp .ogt (f1 i + f2 j) z0) (f1 i + f2 j) (leak * (f1 i + f2 j)) + nbig * (one - adj i j)

/-- A row's maximum, folded from −∞ over the row's entries. -/
def rmax (x : Fin 10000 → EReal) : EReal := (Finset.univ : Finset (Fin 10000)).fold max ninf x

/-- The kernel's weighted mean: the unnormalised weights `exp (x − max)` against the features, divided by their sum. -/
def aggK (x : Fin 10000 → Fin 10000 → EReal) (sq : Fin 10000 → Fin 128 → EReal) (bias : Fin 128 → EReal)
    (i : Fin 10000) (d : Fin 128) : EReal :=
  Ideal.div (∑ j : Fin 10000, Ideal.exp (x i j - rmax (x i)) * sq j d) (∑ j : Fin 10000, Ideal.exp (x i j - rmax (x i))) + bias d

/-- The reference's: each weight divided by the row's sum first (the sum started from 0, the maximum joined with −∞ once
    more, as the host's operations do), then taken against the features. -/
def aggR (x : Fin 10000 → Fin 10000 → EReal) (sq : Fin 10000 → Fin 128 → EReal) (bias : Fin 128 → EReal)
    (i : Fin 10000) (d : Fin 128) : EReal :=
  (∑ j : Fin 10000, Ideal.div (Ideal.exp (x i j - max ninf (rmax (x i))))
      (z0 + ∑ j' : Fin 10000, Ideal.exp (x i j' - max ninf (rmax (x i)))) * sq j d) + bias d

/-- elu, as the kernel writes it. -/
def eluK (o : EReal) : EReal := Scalar.select (Ideal.cmp .ogt o z0) o (Ideal.exp (min o z0) - one)

/-- elu, as the reference writes it. -/
def eluR (o : EReal) : EReal :=
  Scalar.select (Ideal.cmp .ogt o z0) o (one * (Ideal.exp (Scalar.select (Ideal.cmp .ogt o z0) z0 o) - 1))

/-- The kernel's result at (i, d), from the arguments entry by entry. -/
def outK (feat : Fin 10000 → Fin 128 → EReal) (adj : Fin 10000 → Fin 10000 → EReal) (W : Fin 128 → Fin 128 → EReal)
    (al : Fin 128 → EReal) (bl : EReal) (ar : Fin 128 → EReal) (br : EReal) (bias : Fin 128 → EReal)
    (i : Fin 10000) (d : Fin 128) : EReal :=
  eluK (aggK (xK (score (proj feat W) al bl) (score (proj feat W) ar br) adj) (proj feat W) bias i d)

/-- The reference's. -/
def outR (feat : Fin 10000 → Fin 128 → EReal) (adj : Fin 10000 → Fin 10000 → EReal) (W : Fin 128 → Fin 128 → EReal)
    (al : Fin 128 → EReal) (bl : EReal) (ar : Fin 128 → EReal) (br : EReal) (bias : Fin 128 → EReal)
    (i : Fin 10000) (d : Fin 128) : EReal :=
  eluR (aggR (xR (score (proj feat W) al bl) (score (proj feat W) ar br) adj) (proj feat W) bias i d)

/-- Arrays read by coordinates. -/
abbrev cur2 {n0 n1 : Nat} (A : A2 n0 n1) : Fin n0 → Fin n1 → EReal := fun a b => A (ix2 a b)
abbrev cur1 {n : Nat} (A : A1 n) : Fin n → EReal := fun a => A (ix1 a)
abbrev row0 {n : Nat} (A : A2 1 n) : Fin n → EReal := fun b => A (ix2 0 b)

/-- The kernel's result array from the argument arrays. -/
def outKA (feat : A2 10000 128) (adj : A2 10000 10000) (W : A2 128 128) (al : A2 1 128) (bl : A1 1) (ar : A2 1 128)
    (br : A1 1) (bias : A1 128) : A2 10000 128 :=
  fun j => outK (cur2 feat) (cur2 adj) (cur2 W) (row0 al) (bl (ix1 0)) (row0 ar) (br (ix1 0)) (cur1 bias) (j 0) (j 1)

/-- The reference's. -/
def outRA (feat : A2 10000 128) (adj : A2 10000 10000) (W : A2 128 128) (al : A2 1 128) (bl : A1 1) (ar : A2 1 128)
    (br : A1 1) (bias : A1 128) : A2 10000 128 :=
  fun j => outR (cur2 feat) (cur2 adj) (cur2 W) (row0 al) (bl (ix1 0)) (row0 ar) (br (ix1 0)) (cur1 bias) (j 0) (j 1)

end Cert.AttnSpec

end
-- ==== Proof.LibEFinite.lean ====
import Mathlib.Data.EReal.Inv
import Mathlib.Algebra.Order.BigOperators.Group.Finset
import Mathlib.Tactic.Positivity
import Idealize.ShloMosaic.PureOps.Ideal

/-!
# Finiteness through the operations on the extended reals

An extended real is FINITE when it is the coercion of a real number. The arithmetic
of the extended reals has corners at the infinities (∞ − ∞, 0 · ∞, x / 0), and an
identity of real arithmetic holds there only for finite operands; so a comparison of
two programs on the extended reals first needs every intermediate value finite.

This file shows that finiteness passes through each operation the programs use: sums,
products, differences, maxima, finite sums, division by a nonzero real, the
reciprocal square root of a positive real, and the array operations built from them
(contraction, reduction along axes, accumulating scatter, gather). Where a value must
be a legal argument of a reciprocal square root or a divisor, its sign is carried
too: finite and ≥ 0, finite and > 0.
-/

open scoped BigOperators
open Idealize.ShloMosaic

noncomputable section

namespace Cert.EFinite

/-! ### The three predicates -/

/-- An extended real is finite: the coercion of a real number. -/
def IsFin (x : EReal) : Prop := ∃ r : ℝ, x = (r : EReal)

/-- Finite and ≥ 0. -/
def IsNonnegFin (x : EReal) : Prop := ∃ r : ℝ, 0 ≤ r ∧ x = (r : EReal)

/-- Finite and > 0. -/
def IsPosFin (x : EReal) : Prop := ∃ r : ℝ, 0 < r ∧ x = (r : EReal)

/-- A positive finite value is a nonnegative finite value. -/
theorem IsPosFin.isNonnegFin {x : EReal} (h : IsPosFin x) : IsNonnegFin x :=
  let ⟨r, hr, e⟩ := h; ⟨r, hr.le, e⟩

/-- A nonnegative finite value is finite. -/
theorem IsNonnegFin.isFin {x : EReal} (h : IsNonnegFin x) : IsFin x :=
  let ⟨r, _, e⟩ := h; ⟨r, e⟩

/-- A positive finite value is finite. -/
theorem IsPosFin.isFin {x : EReal} (h : IsPosFin x) : IsFin x := h.isNonnegFin.isFin

/-- A finite value is not +∞. -/
theorem IsFin.ne_top {x : EReal} (h : IsFin x) : x ≠ ⊤ := by
  obtain ⟨r, rfl⟩ := h; exact EReal.coe_ne_top r

/-- A finite value is not −∞. -/
theorem IsFin.ne_bot {x : EReal} (h : IsFin x) : x ≠ ⊥ := by
  obtain ⟨r, rfl⟩ := h; exact EReal.coe_ne_bot r

/-- Finite is exactly: neither infinity. -/
theorem isFin_iff {x : EReal} : IsFin x ↔ x ≠ ⊤ ∧ x ≠ ⊥ := by
  refine ⟨fun h => ⟨h.ne_top, h.ne_bot⟩, fun ⟨ht, hb⟩ => ?_⟩
  induction x using EReal.rec with
  | bot => exact absurd rfl hb
  | top => exact absurd rfl ht
  | coe r => exact ⟨r, rfl⟩

/-- A nonnegative finite value is ≥ 0 on the extended reals. -/
theorem IsNonnegFin.nonneg {x : EReal} (h : IsNonnegFin x) : 0 ≤ x := by
  obtain ⟨r, hr, rfl⟩ := h; exact EReal.coe_nonneg.mpr hr

/-- A positive finite value is > 0 on the extended reals, hence nonzero. -/
theorem IsPosFin.pos {x : EReal} (h : IsPosFin x) : 0 < x := by
  obtain ⟨r, hr, rfl⟩ := h; exact EReal.coe_pos.mpr hr

theorem IsPosFin.ne_zero {x : EReal} (h : IsPosFin x) : x ≠ 0 := h.pos.ne'

/-- A finite value that is ≥ 0 is nonnegative finite. -/
theorem IsFin.isNonnegFin {x : EReal} (h : IsFin x) (h0 : 0 ≤ x) : IsNonnegFin x := by
  obtain ⟨r, rfl⟩ := h; exact ⟨r, EReal.coe_nonneg.mp h0, rfl⟩

/-- A finite value that is > 0 is positive finite. -/
theorem IsFin.isPosFin {x : EReal} (h : IsFin x) (h0 : 0 < x) : IsPosFin x := by
  obtain ⟨r, rfl⟩ := h; exact ⟨r, EReal.coe_pos.mp h0, rfl⟩

/-! ### Scalars -/

/-- The coercion of a real is finite. -/
theorem isFin_coe (r : ℝ) : IsFin (r : EReal) := ⟨r, rfl⟩

/-- Zero is finite. -/
theorem isFin_zero : IsFin (0 : EReal) := ⟨0, rfl⟩

/-- One is finite. -/
theorem isFin_one : IsFin (1 : EReal) := ⟨1, rfl⟩

/-- Zero is nonnegative finite. -/
theorem isNonnegFin_zero : IsNonnegFin (0 : EReal) := ⟨0, le_rfl, rfl⟩

/-- One is positive finite. -/
theorem isPosFin_one : IsPosFin (1 : EReal) := ⟨1, one_pos, rfl⟩

/-- The coercion of a nonnegative real is nonnegative finite. -/
theorem isNonnegFin_coe {r : ℝ} (h : 0 ≤ r) : IsNonnegFin (r : EReal) := ⟨r, h, rfl⟩

/-- The coercion of a positive real is positive finite. -/
theorem isPosFin_coe {r : ℝ} (h : 0 < r) : IsPosFin (r : EReal) := ⟨r, h, rfl⟩

/-- The sum of two finite values is finite. -/
theorem IsFin.add {x y : EReal} (hx : IsFin x) (hy : IsFin y) : IsFin (x + y) := by
  obtain ⟨a, rfl⟩ := hx; obtain ⟨b, rfl⟩ := hy; exact ⟨a + b, (EReal.coe_add a b).symm⟩

/-- The product of two finite values is finite. -/
theorem IsFin.mul {x y : EReal} (hx : IsFin x) (hy : IsFin y) : IsFin (x * y) := by
  obtain ⟨a, rfl⟩ := hx; obtain ⟨b, rfl⟩ := hy; exact ⟨a * b, (EReal.coe_mul a b).symm⟩

/-- The negation of a finite value is finite. -/
theorem IsFin.neg {x : EReal} (hx : IsFin x) : IsFin (-x) := by
  obtain ⟨a, rfl⟩ := hx; exact ⟨-a, (EReal.coe_neg a).symm⟩

/-- The difference of two finite values is finite. -/
theorem IsFin.sub {x y : EReal} (hx : IsFin x) (hy : IsFin y) : IsFin (x - y) := by
  obtain ⟨a, rfl⟩ := hx; obtain ⟨b, rfl⟩ := hy; exact ⟨a - b, (EReal.coe_sub a b).symm⟩

/-- The maximum of two finite values is finite: it is one of them. -/
theorem IsFin.max {x y : EReal} (hx : IsFin x) (hy : IsFin y) : IsFin (max x y) := by
  rcases max_choice x y with h | h <;> rw [h] <;> assumption

/-- The minimum of two finite values is finite: it is one of them. -/
theorem IsFin.min {x y : EReal} (hx : IsFin x) (hy : IsFin y) : IsFin (min x y) := by
  rcases min_choice x y with h | h <;> rw [h] <;> assumption

/-- The maximum of a finite value with 0 (a rectifier) is nonnegative finite. -/
theorem IsFin.max_zero_isNonnegFin {x : EReal} (hx : IsFin x) : IsNonnegFin (Max.max x 0) :=
  (hx.max isFin_zero).isNonnegFin (le_max_right _ _)

/-- The sum of two nonnegative finite values is nonnegative finite. -/
theorem IsNonnegFin.add {x y : EReal} (hx : IsNonnegFin x) (hy : IsNonnegFin y) : IsNonnegFin (x + y) := by
  obtain ⟨a, ha, rfl⟩ := hx; obtain ⟨b, hb, rfl⟩ := hy
  exact ⟨a + b, add_nonneg ha hb, (EReal.coe_add a b).symm⟩

/-- The product of two nonnegative finite values is nonnegative finite. -/
theorem IsNonnegFin.mul {x y : EReal} (hx : IsNonnegFin x) (hy : IsNonnegFin y) : IsNonnegFin (x * y) := by
  obtain ⟨a, ha, rfl⟩ := hx; obtain ⟨b, hb, rfl⟩ := hy
  exact ⟨a * b, mul_nonneg ha hb, (EReal.coe_mul a b).symm⟩

/-- A nonnegative finite value plus a positive finite one is positive finite
    (a count ≥ 0 plus one is ≥ 1 > 0). -/
theorem IsNonnegFin.add_isPosFin {x y : EReal} (hx : IsNonnegFin x) (hy : IsPosFin y) : IsPosFin (x + y) := by
  obtain ⟨a, ha, rfl⟩ := hx; obtain ⟨b, hb, rfl⟩ := hy
  exact ⟨a + b, add_pos_of_nonneg_of_pos ha hb, (EReal.coe_add a b).symm⟩

/-- A nonnegative finite value plus one is a real ≥ 1. -/
theorem IsNonnegFin.add_one {x : EReal} (hx : IsNonnegFin x) : ∃ r : ℝ, 1 ≤ r ∧ x + 1 = (r : EReal) := by
  obtain ⟨a, ha, rfl⟩ := hx
  exact ⟨a + 1, by linarith, by rw [EReal.coe_add, EReal.coe_one]⟩

/-- The product of two positive finite values is positive finite. -/
theorem IsPosFin.mul {x y : EReal} (hx : IsPosFin x) (hy : IsPosFin y) : IsPosFin (x * y) := by
  obtain ⟨a, ha, rfl⟩ := hx; obtain ⟨b, hb, rfl⟩ := hy
  exact ⟨a * b, mul_pos ha hb, (EReal.coe_mul a b).symm⟩

/-- The maximum of a finite value with a positive finite one is positive finite
    (a count clamped below by one). -/
theorem IsFin.max_isPosFin {x y : EReal} (hx : IsFin x) (hy : IsPosFin y) : IsPosFin (Max.max x y) :=
  (hx.max hy.isFin).isPosFin (lt_of_lt_of_le hy.pos (le_max_right _ _))

/-! ### Finite sums -/

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- A finite sum of nonnegative finite values is nonnegative finite. -/
theorem isNonnegFin_sum {ι : Type*} (s : Finset ι) (f : ι → EReal) (h : ∀ i ∈ s, IsNonnegFin (f i)) :
    IsNonnegFin (∑ i ∈ s, f i) := by
  classical
  induction s using Finset.induction_on with
  | empty => simpa using isNonnegFin_zero
  | insert a s ha ih =>
    rw [Finset.sum_insert ha]
    exact (h a (Finset.mem_insert_self a s)).add (ih fun i hi => h i (Finset.mem_insert_of_mem hi))

/-- The sum over a whole finite type of finite values is finite. -/
theorem isFin_sum_univ {ι : Type*} [Fintype ι] (f : ι → EReal) (h : ∀ i, IsFin (f i)) : IsFin (∑ i, f i) :=
  isFin_sum _ f fun i _ => h i

/-! ### Division and the reciprocal square root -/

/-- A finite value divided by a nonzero real is finite. -/
theorem IsFin.div_coe {x : EReal} (hx : IsFin x) {y : ℝ} (hy : y ≠ 0) : IsFin (Ideal.div x (y : EReal)) := by
  rw [Ideal.div_coe hy]; exact hx.mul (isFin_coe _)

/-- A finite value divided by a positive finite one is finite. -/
theorem IsFin.div_isPosFin {x y : EReal} (hx : IsFin x) (hy : IsPosFin y) : IsFin (Ideal.div x y) := by
  obtain ⟨b, hb, rfl⟩ := hy; exact hx.div_coe hb.ne'

/-- A nonnegative finite value divided by a positive finite one is nonnegative finite. -/
theorem IsNonnegFin.div_isPosFin {x y : EReal} (hx : IsNonnegFin x) (hy : IsPosFin y) :
    IsNonnegFin (Ideal.div x y) := by
  obtain ⟨b, hb, rfl⟩ := hy
  rw [Ideal.div_coe hb.ne']
  exact hx.mul (isNonnegFin_coe (by positivity))

/-- The reciprocal square root of a positive real x is the real 1/√x. -/
theorem rsqrt_coe_of_pos {x : ℝ} (hx : 0 < x) : Ideal.rsqrt (x : EReal) = (((Real.sqrt x)⁻¹ : ℝ) : EReal) := by
  rw [Ideal.rsqrt_coe, if_neg (not_lt.mpr hx.le), if_neg hx.ne']

/-- The reciprocal square root of a positive finite value is positive finite. -/
theorem IsPosFin.rsqrt {x : EReal} (hx : IsPosFin x) : IsPosFin (Ideal.rsqrt x) := by
  obtain ⟨r, hr, rfl⟩ := hx
  exact ⟨(Real.sqrt r)⁻¹, inv_pos.mpr (Real.sqrt_pos.mpr hr), rsqrt_coe_of_pos hr⟩

/-- The reciprocal square root of (nonnegative finite + positive finite), such as a
    variance plus ε, is positive finite. -/
theorem IsNonnegFin.rsqrt_add_isPosFin {x e : EReal} (hx : IsNonnegFin x) (he : IsPosFin e) :
    IsPosFin (Ideal.rsqrt (x + e)) :=
  (hx.add_isPosFin he).rsqrt

/-! ### Arrays: functions into the extended reals -/

/-- A gather — any reindexing of a finite array — is finite. -/
theorem isFin_gather {α β : Type*} (x : α → EReal) (π : β → α) (hx : ∀ i, IsFin (x i)) :
    ∀ j, IsFin ((fun j => x (π j)) j) := fun j => hx (π j)

/-- Likewise for positive finite arrays. -/
theorem isPosFin_gather {α β : Type*} (x : α → EReal) (π : β → α) (hx : ∀ i, IsPosFin (x i)) :
    ∀ j, IsPosFin ((fun j => x (π j)) j) := fun j => hx (π j)

/-- A contraction with a finite accumulator and finite operands is finite entrywise:
    accumulator plus a finite sum of products. -/
theorem isFin_matmul {sl sr so : Shape} (d : DotDims sl sr so) (lhs : sl.Idx → EReal) (rhs : sr.Idx → EReal)
    (acc : so.Idx → EReal) (hl : ∀ i, IsFin (lhs i)) (hr : ∀ i, IsFin (rhs i)) (ha : ∀ j, IsFin (acc j)) :
    ∀ j, IsFin (Ideal.matmul d lhs rhs acc j) := fun j =>
  (ha j).add (isFin_sum _ _ fun k _ => (hl _).mul (hr _))

/-- The same contraction onto the zero accumulator (a host dot product). -/
theorem isFin_matmul_zero {sl sr so : Shape} (d : DotDims sl sr so) (lhs : sl.Idx → EReal) (rhs : sr.Idx → EReal)
    (hl : ∀ i, IsFin (lhs i)) (hr : ∀ i, IsFin (rhs i)) :
    ∀ j, IsFin (Ideal.matmul d lhs rhs (fun _ => 0) j) :=
  isFin_matmul d lhs rhs _ hl hr fun _ => isFin_zero

/-- A host reduction by addition of finite entries from a finite initial value is finite. -/
theorem isFin_hostReduceAdd {s : Shape} {axes : List (Fin s.rank)} {t : Shape} (h : s.ReducesTo axes t)
    (x : s.Idx → EReal) (init : EReal) (hx : ∀ i, IsFin (x i)) (hi : IsFin init) :
    ∀ j, IsFin (Ideal.hostReduceAdd h x init j) := fun _ =>
  hi.add (isFin_sum _ _ fun i _ => hx i)

/-- A kernel's reduction by addition of finite entries is finite. -/
theorem isFin_reduceAdd {s : Shape} {axes : List (Fin s.rank)} {t : Shape} (h : s.Reduces axes t)
    (x : s.Idx → EReal) (hx : ∀ i, IsFin (x i)) :
    ∀ j, IsFin (Ideal.reduceAdd h x j) := fun _ =>
  isFin_sum _ _ fun i _ => hx i

/-- An accumulating scatter of finite updates onto a finite operand is finite entrywise:
    each operand entry plus a finite sum of updates. -/
theorem isFin_hostScatterAdd {s si su : Shape} (d : ScatterDims s si su) {w : Nat} (x : s.Idx → EReal)
    (idx : IVec si w) (upd : su.Idx → EReal) (hx : ∀ i, IsFin (x i)) (hu : ∀ j, IsFin (upd j)) :
    ∀ i, IsFin (Ideal.hostScatterAdd d x idx upd i) := fun i =>
  (hx i).add (isFin_sum _ _ fun j _ => hu j)

/-- When every update is ≥ 0, an accumulating scatter only raises the operand. -/
theorem le_hostScatterAdd {s si su : Shape} (d : ScatterDims s si su) {w : Nat} (x : s.Idx → EReal)
    (idx : IVec si w) (upd : su.Idx → EReal) (hu : ∀ j, 0 ≤ upd j) :
    ∀ i, x i ≤ Ideal.hostScatterAdd d x idx upd i := fun i =>
  le_add_of_nonneg_right (Finset.sum_nonneg fun j _ => hu j)

/-- An accumulating scatter of nonnegative finite updates onto a nonnegative finite
    operand is nonnegative finite entrywise (ones scattered onto zeros: a count). -/
theorem isNonnegFin_hostScatterAdd {s si su : Shape} (d : ScatterDims s si su) {w : Nat} (x : s.Idx → EReal)
    (idx : IVec si w) (upd : su.Idx → EReal) (hx : ∀ i, IsNonnegFin (x i)) (hu : ∀ j, IsNonnegFin (upd j)) :
    ∀ i, IsNonnegFin (Ideal.hostScatterAdd d x idx upd i) := fun i =>
  (hx i).add (isNonnegFin_sum _ _ fun j _ => hu j)

/-- So a count (nonnegative finite updates scattered onto a nonnegative finite operand)
    plus a positive finite value — a degree plus one for the self-loop — is positive
    finite, a legal argument for a reciprocal square root or a divisor. -/
theorem isPosFin_hostScatterAdd_add {s si su : Shape} (d : ScatterDims s si su) {w : Nat} (x : s.Idx → EReal)
    (idx : IVec si w) (upd : su.Idx → EReal) (hx : ∀ i, IsNonnegFin (x i)) (hu : ∀ j, IsNonnegFin (upd j))
    {c : EReal} (hc : IsPosFin c) :
    ∀ i, IsPosFin (Ideal.hostScatterAdd d x idx upd i + c) := fun i =>
  (isNonnegFin_hostScatterAdd d x idx upd hx hu i).add_isPosFin hc

end Cert.EFinite
-- ==== Proof.AttnAlgebra.lean ====
/-
  The two spellings of the attention head agree wherever every argument entry is a real number.

  The road: the float literals are read once (0, 1, −∞, a real B and its negative, a slope c with 0 ≤ c ≤ 1); sums of
  products of reals are reals, so the two logit halves are reals; on a real logit the two leaky spellings and the two
  spellings of the mask agree; a row of reals has its maximum among its entries, so every shifted entry is a real and
  every weight exp (x − max) a positive real, whence the row's sum is a positive real S; division by S is the product
  with the real 1/S, and a product with a real moves across a finite sum of reals; the two spellings of elu agree at
  every extended real.
-/
import proofs.«122394_g61658550502133_cont_9to1_m_383_3_alg».proof.Proof.AttnSpec
import proofs.«122394_g61658550502133_cont_9to1_m_383_3_alg».proof.Proof.LibEFinite

noncomputable section

open scoped BigOperators

namespace Cert.AttnSpec

open Idealize.ShloMosaic Idealize.ShloMosaic.ValueIdx Cert.EFinite

/-! ### The literals, each read once -/

/-- The zero word is 0. -/
theorem z0_eq : z0 = 0 := by simp [z0, Ideal.ofBits, Ideal.ieee]

/-- The word of 1.0 is 1: 2²³ · 2⁻²³. -/
theorem one_eq : one = 1 := by
  simp [one, Ideal.ofBits, Ideal.ieee, -EReal.coe_mul]; norm_num

/-- The word with all exponent bits set, no fraction and the sign bit set is −∞. -/
theorem ninf_eq : ninf = ⊥ := by simp [ninf, Ideal.ofBits, Ideal.ieee]

/-- The two mask words are a real and its negative. -/
theorem big_eq : ∃ B : ℝ, big = (B : EReal) ∧ nbig = ((-B : ℝ) : EReal) := by
  simp [big, nbig, Ideal.ofBits, Ideal.ieee, -EReal.coe_mul]

/-- The slope word is a real between 0 and 1: 13421773 · 2⁻²⁶. -/
theorem leak_eq : ∃ c : ℝ, 0 ≤ c ∧ c ≤ 1 ∧ leak = (c : EReal) := by
  simp [leak, Ideal.ofBits, Ideal.ieee, -EReal.coe_mul]; norm_num

/-! ### General facts on the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum folded from −∞ over a nonempty finite family is one of the family's entries. -/
theorem fold_max_bot_attained {ι : Type*} (s : Finset ι) (hs : s.Nonempty) (f : ι → EReal) :
    ∃ j ∈ s, s.fold max ⊥ f = f j := by
  have hle : ∀ j ∈ s, f j ≤ s.fold max ⊥ f :=
    ((Finset.fold_max_le (s := s) (b := ⊥) (f := f) (c := s.fold max ⊥ f)).mp le_rfl).2
  rcases (Finset.le_fold_max (s := s) (b := ⊥) (f := f) (c := s.fold max ⊥ f)).mp le_rfl with h | ⟨j, hj, h⟩
  · obtain ⟨j, hj⟩ := hs
    exact ⟨j, hj, le_antisymm (h.trans bot_le) (hle j hj)⟩
  · exact ⟨j, hj, le_antisymm h (hle j hj)⟩

/-- The comparison "greater than 0" is the bit 1 exactly where 0 < o. -/
theorem cmp_ogt_zero_of_pos {o : EReal} (h : 0 < o) : Ideal.cmp .ogt o 0 = 1#1 := by simp [Ideal.cmp, h]

theorem cmp_ogt_zero_of_not_pos {o : EReal} (h : ¬ 0 < o) : Ideal.cmp .ogt o 0 = 0#1 := by simp [Ideal.cmp, h]

/-- On a real l with a slope 0 ≤ c ≤ 1 the larger of l and c·l is l where l > 0 and c·l elsewhere. -/
theorem leaky_eq (l c : ℝ) (h0 : 0 ≤ c) (h1 : c ≤ 1) :
    max (l : EReal) ((c : EReal) * (l : EReal))
      = Scalar.select (Ideal.cmp .ogt (l : EReal) 0) (l : EReal) ((c : EReal) * (l : EReal)) := by
  rw [← EReal.coe_mul]
  by_cases h : 0 < l
  · rw [cmp_ogt_zero_of_pos (EReal.coe_pos.mpr h), select_one, max_eq_left]
    exact_mod_cast (by nlinarith : c * l ≤ l)
  · rw [cmp_ogt_zero_of_not_pos (fun h' => h (EReal.coe_pos.mp h')), select_zero, max_eq_right]
    exact_mod_cast (by nlinarith : l ≤ c * l)

/-- Division by a nonzero real S moves across a finite sum of products of reals. -/
theorem div_sum_mul {ι : Type*} (s : Finset ι) (e q : ι → ℝ) (S : ℝ) (hS : S ≠ 0) :
    Ideal.div (∑ j ∈ s, (e j : EReal) * (q j : EReal)) (S : EReal)
      = ∑ j ∈ s, Ideal.div (e j : EReal) (S : EReal) * (q j : EReal) := by
  simp only [Ideal.div_coe hS, ← EReal.coe_mul, ← coe_sum]
  rw [Finset.sum_mul]
  exact congrArg _ (Finset.sum_congr rfl fun j _ => by ring)

/-! ### The attention head -/

/-- The projected features of finite data are finite. -/
theorem isFin_proj (feat : Fin 10000 → Fin 128 → EReal) (W : Fin 128 → Fin 128 → EReal)
    (hfeat : ∀ i k, IsFin (feat i k)) (hW : ∀ d k, IsFin (W d k)) (i : Fin 10000) (d : Fin 128) :
    IsFin (proj feat W i d) := by
  unfold proj
  exact isFin_sum_univ _ fun k => (hfeat i k).mul (hW d k)

/-- A score of finite data is finite. -/
theorem isFin_score (sq : Fin 10000 → Fin 128 → EReal) (a : Fin 128 → EReal) (b : EReal)
    (hsq : ∀ i d, IsFin (sq i d)) (ha : ∀ d, IsFin (a d)) (hb : IsFin b) (i : Fin 10000) :
    IsFin (score sq a b i) := by
  unfold score
  exact (isFin_sum_univ _ fun d => (hsq i d).mul (ha d)).add hb

/-- On finite logit halves the two spellings of the masked leaky logit agree: the larger of l and c·l is the choice by
    the sign of l, and subtracting B·t is adding (−B)·t. -/
theorem xK_eq_xR (f1 f2 : Fin 10000 → EReal) (adj : Fin 10000 → Fin 10000 → EReal)
    (h1 : ∀ i, IsFin (f1 i)) (h2 : ∀ j, IsFin (f2 j)) : xK f1 f2 adj = xR f1 f2 adj := by
  funext i j
  obtain ⟨a, ha⟩ := h1 i
  obtain ⟨b, hb⟩ := h2 j
  obtain ⟨c, hc0, hc1, hc⟩ := leak_eq
  obtain ⟨B, hB, hnB⟩ := big_eq
  unfold xK xR
  rw [ha, hb, hc, hB, hnB, z0_eq, ← EReal.coe_add, leaky_eq _ _ hc0 hc1, sub_eq_add_neg, EReal.coe_neg,
    EReal.neg_mul]

/-- The reference's masked logit of finite data is finite. -/
theorem isFin_xR (f1 f2 : Fin 10000 → EReal) (adj : Fin 10000 → Fin 10000 → EReal)
    (h1 : ∀ i, IsFin (f1 i)) (h2 : ∀ j, IsFin (f2 j)) (hadj : ∀ i j, IsFin (adj i j)) (i j : Fin 10000) :
    IsFin (xR f1 f2 adj i j) := by
  obtain ⟨c, -, -, hc⟩ := leak_eq
  obtain ⟨B, -, hnB⟩ := big_eq
  have hl : IsFin (f1 i + f2 j) := (h1 i).add (h2 j)
  have hleak : IsFin leak := by rw [hc]; exact isFin_coe c
  have hnbig : IsFin nbig := by rw [hnB]; exact isFin_coe _
  have hone : IsFin one := by rw [one_eq]; exact isFin_one
  unfold xR
  refine IsFin.add ?_ (hnbig.mul (hone.sub (hadj i j)))
  unfold Scalar.select
  split
  · exact hl
  · exact hleak.mul hl

/-- A row's maximum is one of the row's entries. -/
theorem rmax_attained (x : Fin 10000 → EReal) : ∃ j0, rmax x = x j0 := by
  unfold rmax
  rw [ninf_eq]
  obtain ⟨j0, -, h⟩ := fold_max_bot_attained (Finset.univ : Finset (Fin 10000)) ⟨0, Finset.mem_univ _⟩ x
  exact ⟨j0, h⟩

/-- On a finite row and finite features the quotient by the row's sum of weights may be taken after the weighted sum or
    before it; the second maximum with −∞ and the sum's start from 0 change nothing. -/
theorem aggK_eq_aggR (x : Fin 10000 → Fin 10000 → EReal) (sq : Fin 10000 → Fin 128 → EReal) (bias : Fin 128 → EReal)
    (hx : ∀ i j, IsFin (x i j)) (hsq : ∀ j d, IsFin (sq j d)) (i : Fin 10000) (d : Fin 128) :
    aggK x sq bias i d = aggR x sq bias i d := by
  unfold aggK aggR
  have hm : max ninf (rmax (x i)) = rmax (x i) := by rw [ninf_eq]; exact max_eq_right bot_le
  rw [hm, z0_eq, zero_add]
  obtain ⟨j0, hj0⟩ := rmax_attained (x i)
  choose a ha using hx i
  choose q hq using fun j => hsq j d
  have he : ∀ j, Ideal.exp (x i j - rmax (x i)) = ((Real.exp (a j - a j0) : ℝ) : EReal) := by
    intro j; rw [hj0, ha j, ha j0, ← EReal.coe_sub, Ideal.exp_coe]
  have hS : (0 : ℝ) < ∑ j, Real.exp (a j - a j0) :=
    Finset.sum_pos (fun j _ => Real.exp_pos _) ⟨0, Finset.mem_univ _⟩
  have hs : (∑ j, ((Real.exp (a j - a j0) : ℝ) : EReal)) = ((∑ j, Real.exp (a j - a j0) : ℝ) : EReal) :=
    (coe_sum _ _).symm
  simp only [he, hq, hs]
  rw [div_sum_mul _ _ _ _ hS.ne']

/-- The two spellings of elu agree at every extended real: the same test; where it fails o ≤ 0, so the smaller of o and 0
    is o and so is the choice; and 1 · y = y. -/
theorem eluK_eq_eluR (o : EReal) : eluK o = eluR o := by
  unfold eluK eluR
  rw [z0_eq, one_eq, one_mul]
  by_cases h : 0 < o
  · simp only [cmp_ogt_zero_of_pos h, select_one]
  · simp only [cmp_ogt_zero_of_not_pos h, select_zero, min_eq_left (not_lt.mp h)]

/-- Entry by entry: with every argument finite the kernel's spelling and the reference's are the same extended real. -/
theorem outK_eq_outR (feat : Fin 10000 → Fin 128 → EReal) (adj : Fin 10000 → Fin 10000 → EReal)
    (W : Fin 128 → Fin 128 → EReal) (al : Fin 128 → EReal) (bl : EReal) (ar : Fin 128 → EReal) (br : EReal)
    (bias : Fin 128 → EReal)
    (hfeat : ∀ i k, IsFin (feat i k)) (hadj : ∀ i j, IsFin (adj i j)) (hW : ∀ d k, IsFin (W d k))
    (hal : ∀ d, IsFin (al d)) (hbl : IsFin bl) (har : ∀ d, IsFin (ar d)) (hbr : IsFin br)
    (hbias : ∀ d, IsFin (bias d)) (i : Fin 10000) (d : Fin 128) :
    outK feat adj W al bl ar br bias i d = outR feat adj W al bl ar br bias i d := by
  have hq : ∀ j d, IsFin (proj feat W j d) := isFin_proj feat W hfeat hW
  have h1 : ∀ i, IsFin (score (proj feat W) al bl i) := isFin_score _ al bl hq hal hbl
  have h2 : ∀ j, IsFin (score (proj feat W) ar br j) := isFin_score _ ar br hq har hbr
  unfold outK outR
  rw [xK_eq_xR _ _ adj h1 h2, eluK_eq_eluR, aggK_eq_aggR _ _ bias (isFin_xR _ _ adj h1 h2 hadj) hq]

/-- The same for the whole arrays. -/
theorem outKA_eq_outRA (feat : A2 10000 128) (adj : A2 10000 10000) (W : A2 128 128) (al : A2 1 128) (bl : A1 1)
    (ar : A2 1 128) (br : A1 1) (bias : A1 128)
    (hfeat : ∀ j, IsFin (feat j)) (hadj : ∀ j, IsFin (adj j)) (hW : ∀ j, IsFin (W j)) (hal : ∀ j, IsFin (al j))
    (hbl : ∀ j, IsFin (bl j)) (har : ∀ j, IsFin (ar j)) (hbr : ∀ j, IsFin (br j)) (hbias : ∀ j, IsFin (bias j)) :
    outKA feat adj W al bl ar br bias = outRA feat adj W al bl ar br bias :=
  funext fun j => outK_eq_outR _ _ _ _ _ _ _ _ (fun _ _ => hfeat _) (fun _ _ => hadj _) (fun _ _ => hW _)
    (fun _ => hal _) (hbl _) (fun _ => har _) (hbr _) (fun _ => hbias _) (j 0) (j 1)

end Cert.AttnSpec

end
-- ==== Proof.FiniteArgs.lean ====
/-
  The precondition read: where the printed predicate "every float input is finite" is all ones, every entry of every
  argument is a real number.

  The predicate is, argument by argument, "all entries satisfy |x| < +∞", and the eight answers are joined by "and".
  A one-bit "and" that is 1 has both operands 1; an "and"-reduction over all axes that is 1 met a 1 at every entry;
  and on the extended reals |x| = max x (-x) is below ⊤ only when x is neither ⊤ nor ⊥, that is, when x is a real.
-/
import proofs.«122394_g61658550502133_cont_9to1_m_383_3_alg».proof.Proof.Gen.Pre_finite_inputs
import proofs.«122394_g61658550502133_cont_9to1_m_383_3_alg».proof.Proof.LibEFinite
import Idealize.ShloMosaic.Lib.ReduceAll
import Idealize.ShloMosaic.Lib.ValueIdx

noncomputable section

namespace Cert.FiniteArgs

open Idealize.ShloMosaic Cert.Pre_finite_inputs Cert.EFinite

/-- The single-precision pattern 0x7F800000 (sign 0, exponent all ones, mantissa 0) denotes +∞. -/
theorem ofBits_inf : Ideal.ofBits .f32 0x7F800000#32 = (⊤ : EReal) := by simp [Ideal.ofBits, Ideal.ieee]

/-- An extended real whose absolute value max a (-a) is strictly below ⊤ is a real: at ⊥ and at ⊤ that maximum is ⊤. -/
theorem isFin_of_abs_lt_top (a : EReal) (h : Ideal.cmp .olt (max a (-a)) (⊤ : EReal) = 1#1) : IsFin a := by
  induction a using EReal.rec with
  | bot => simp [Ideal.cmp] at h
  | top => simp [Ideal.cmp] at h
  | coe r => exact ⟨r, rfl⟩

/-- One entry of the comparison "|x| < +∞" (the bound a scalar constant spread over the shape) being 1 says that entry
    of x is a real. Stated for any shape. -/
theorem isFin_of_cmpf {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) : IsFin (x i) := by
  have h' : Ideal.cmp .olt (max (x i) (-(x i))) (Ideal.ofBits .f32 0x7F800000#32) = 1#1 := h
  rw [ofBits_inf] at h'
  exact isFin_of_abs_lt_top _ h'

/-- An entrywise "and" of one-bit arrays that is 1 at an index has both operands 1 there. -/
theorem andi_apply_eq_one {s : Shape} (p q : IVec s 1) (i : s.Idx) (h : andi p q i = 1#1) : p i = 1#1 ∧ q i = 1#1 :=
  IntOp.andi_eq_one.1 h

/-- "all(|x| < +∞)" being 1 — the "and"-reduction of the comparison over every axis, down to the scalar shape, which has
    a single index — says every entry of x is a real. -/
theorem all_isFin {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (e : Host.reduce IntOp.andi (cmpf .olt (Host.absf x) (broadcastInDim s ![] hb (constant S_ .f32 0x7F800000#32)))
      init hr hu j = 1#1) : ∀ i, IsFin (x i) :=
  fun i =>
    haveI : Subsingleton S_.Idx := ⟨fun a b => funext fun d => d.elim0⟩
    isFin_of_cmpf hb x i (Host.reduce_andi_all _ init hr hu j e i)

theorem finite_of_pre (x0 : FVec Ideal S10000x128 .f32) (x1 : FVec Ideal S10000x10000 .f32) (x2 : FVec Ideal S128x128 .f32)
    (x3 : FVec Ideal S1x128 .f32) (x4 : FVec Ideal S1 .f32) (x5 : FVec Ideal S1x128 .f32) (x6 : FVec Ideal S1 .f32)
    (x7 : FVec Ideal S128 .f32)
    (h : Cert.Pre_finite_inputs.fn (F := Ideal) x0 x1 x2 x3 x4 x5 x6 x7 = fun _ => 1#1) :
    (∀ j, IsFin (x0 j)) ∧ (∀ j, IsFin (x1 j)) ∧ (∀ j, IsFin (x2 j)) ∧ (∀ j, IsFin (x3 j)) ∧ (∀ j, IsFin (x4 j))
      ∧ (∀ j, IsFin (x5 j)) ∧ (∀ j, IsFin (x6 j)) ∧ (∀ j, IsFin (x7 j)) := by
  -- the predicate's one value, read at the scalar shape's index: seven nested "and"s of the eight reductions
  have h0 := congrFun h ValueIdx.ix0
  dsimp only [fn, fn_part1, fn_part2] at h0
  -- peel the conjunction from the outside in: the last argument's reduction comes off first
  obtain ⟨h0, e7⟩ := andi_apply_eq_one _ _ _ h0
  obtain ⟨h0, e6⟩ := andi_apply_eq_one _ _ _ h0
  obtain ⟨h0, e5⟩ := andi_apply_eq_one _ _ _ h0
  obtain ⟨h0, e4⟩ := andi_apply_eq_one _ _ _ h0
  obtain ⟨h0, e3⟩ := andi_apply_eq_one _ _ _ h0
  obtain ⟨h0, e2⟩ := andi_apply_eq_one _ _ _ h0
  obtain ⟨e0, e1⟩ := andi_apply_eq_one _ _ _ h0
  exact ⟨all_isFin _ _ _ x0 _ _ e0, all_isFin _ _ _ x1 _ _ e1, all_isFin _ _ _ x2 _ _ e2, all_isFin _ _ _ x3 _ _ e3,
    all_isFin _ _ _ x4 _ _ e4, all_isFin _ _ _ x5 _ _ e5, all_isFin _ _ _ x6 _ _ e6, all_isFin _ _ _ x7 _ _ e7⟩

end Cert.FiniteArgs

end
-- ==== Proof.KVal0.lean ====
/-
  Region 0 (the projection): what its three output arrays hold after the region, as whole-array functions of the
  arrays the region finds.

  Each grid point `t` of the five takes rows `2000 t … 2000 t + 1999` of the feature array and the whole weight,
  attention-vector and bias arrays, and writes back the same rows of three arrays: the feature block times the weight
  (a sum over the 128 contracted columns), and two score columns, each that product times an attention column plus a
  bias spread over the rows. Read at one entry, each block's value is the whole-array function (`Gseq`, `Gf`) at the
  entry's place in the array; the five row blocks tile the 10000 rows, so each array ends holding its function.
-/
import proofs.«122394_g61658550502133_cont_9to1_m_383_3_alg».proof.Proof.Gen.KernelIdeal.Frame
import proofs.«122394_g61658550502133_cont_9to1_m_383_3_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx
open Idealize.SL.Sem Cert.AttnSpec
open Idealize.ShloMosaic.Pipeline (Dat)

variable (V : (c : Dev nD) → (b : Ref sig .tc) → Buf (Elt Ideal) ((c : Thread nD τ).loc b))

/-- The projected features from `feat` and the TRANSPOSED weight `Wt k d = W d k`. -/
def Gseq (feat : Vec Ideal S10000x128 .f32) (Wt : Vec Ideal S128x128 .f32) : Vec Ideal S10000x128 .f32 :=
  fun j => proj (cur2 feat) (fun d k => Wt (ix2 k d)) (j 0) (j 1)

/-- A score column from `feat`, the transposed weight, a transposed attention vector (a column) and its bias (1×1). -/
def Gf (feat : Vec Ideal S10000x128 .f32) (Wt : Vec Ideal S128x128 .f32) (aT : Vec Ideal S128x1 .f32)
    (b11 : Vec Ideal S1x1 .f32) : Vec Ideal S10000x1 .f32 :=
  fun j => score (proj (cur2 feat) (fun d k => Wt (ix2 k d))) (fun d => aT (ix2 d 0)) (b11 (ix2 0 0)) (j 0)

namespace Proj

/-- `Gseq` at (r, q), spelled out. -/
theorem Gseq_apply (feat : Vec Ideal S10000x128 .f32) (Wt : Vec Ideal S128x128 .f32) (r : Fin 10000) (q : Fin 128) :
    Gseq feat Wt (ix2 r q) = ∑ k : Fin 128, feat (ix2 r k) * Wt (ix2 k q) := rfl

/-- `Gf` at row r, spelled out. -/
theorem Gf_apply (feat : Vec Ideal S10000x128 .f32) (Wt : Vec Ideal S128x128 .f32) (aT : Vec Ideal S128x1 .f32)
    (b11 : Vec Ideal S1x1 .f32) (r : Fin 10000) (q : Fin 1) :
    Gf feat Wt aT b11 (ix2 r q)
      = (∑ d : Fin 128, (∑ k : Fin 128, feat (ix2 r k) * Wt (ix2 k d)) * aT (ix2 d 0)) + b11 (ix2 0 0) := rfl

/-! ## The two products' operand indices, axis by axis -/

/-- The feature product's left operand index, on its row axis, is the output's row. -/
theorem lhs_proj_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- On its column axis it is the contraction position. -/
theorem lhs_proj_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single (cl := 1) rfl j k

/-- The right operand's index, on its row axis, is the contraction position. -/
theorem rhs_proj_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single (cr := 0) rfl j k

/-- On its column axis it is the output's column. -/
theorem rhs_proj_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The score product's left operand index, on its row axis, is the output's row. -/
theorem lhs_score_0 (j : S2000x1.Idx) (k : dot_S2000x128_S128x1_S2000x1_1_0_0_1_n_n.contr.Idx) :
    (dot_S2000x128_S128x1_S2000x1_1_0_0_1_n_n.lhsIdx j k 0).val = (j 0).val := by
  unfold DotDims.lhsIdx
  rw [dif_neg (show ¬(0 : Fin S2000x128.rank) ∈ dot_S2000x128_S128x1_S2000x1_1_0_0_1_n_n.lhsBatch by decide),
    dif_pos (show (0 : Fin S2000x128.rank) ∈ dot_S2000x128_S128x1_S2000x1_1_0_0_1_n_n.lhsNonContracting by decide)]
  rfl

/-- On its column axis it is the contraction position. -/
theorem lhs_score_1 (j : S2000x1.Idx) (k : dot_S2000x128_S128x1_S2000x1_1_0_0_1_n_n.contr.Idx) :
    (dot_S2000x128_S128x1_S2000x1_1_0_0_1_n_n.lhsIdx j k 1).val = (k ⟨0, by decide⟩).val :=
  dot_S2000x128_S128x1_S2000x1_1_0_0_1_n_n.lhsIdx_val_of_single (cl := 1) rfl j k

/-- The attention column's index, on its row axis, is the contraction position. -/
theorem rhs_score_0 (j : S2000x1.Idx) (k : dot_S2000x128_S128x1_S2000x1_1_0_0_1_n_n.contr.Idx) :
    (dot_S2000x128_S128x1_S2000x1_1_0_0_1_n_n.rhsIdx j k 0).val = (k ⟨0, by decide⟩).val :=
  dot_S2000x128_S128x1_S2000x1_1_0_0_1_n_n.rhsIdx_val_of_single (cr := 0) rfl j k

/-- On its one-wide column axis it is the output's column. -/
theorem rhs_score_1 (j : S2000x1.Idx) (k : dot_S2000x128_S128x1_S2000x1_1_0_0_1_n_n.contr.Idx) :
    (dot_S2000x128_S128x1_S2000x1_1_0_0_1_n_n.rhsIdx j k 1).val = (j 1).val := by
  unfold DotDims.rhsIdx
  rw [dif_neg (show ¬(1 : Fin S128x1.rank) ∈ dot_S2000x128_S128x1_S2000x1_1_0_0_1_n_n.rhsBatch by decide),
    dif_pos (show (1 : Fin S128x1.rank) ∈ dot_S2000x128_S128x1_S2000x1_1_0_0_1_n_n.rhsNonContracting by decide)]
  rfl

/-! ## The payloads at an index -/

/-- The feature product at (p, q): the row of the feature block against the column of the weight block. -/
theorem pay_proj_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  simp only [matmul, shapeCast_self]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 p q)
      ((contrEquiv1 dot_S2000x128_S128x128_S2000x128_1_0_0_1_n_n 128 rfl rfl).symm k) = ix2 p k := by
    funext a; apply Fin.ext
    match a with
    | ⟨0, _⟩ => exact lhs_proj_0 _ _
    | ⟨1, _⟩ => exact (lhs_proj_1 _ _).trans hk
  have hr : dot_S2000x128_S128x128_S2000x128_1_0_0_1_n_n.rhsIdx (ix2 p q)
      ((contrEquiv1 dot_S2000x128_S128x128_S2000x128_1_0_0_1_n_n 128 rfl rfl).symm k) = ix2 k q := by
    funext a; apply Fin.ext
    match a with
    | ⟨0, _⟩ => exact (rhs_proj_0 _ _).trans hk
    | ⟨1, _⟩ => exact rhs_proj_1 _ _
  rw [hl, hr]

/-- A score column's payload at row p, over ANY projected block P: the row of P against the attention column, plus the
    bias that the 1×1 block spreads over the rows. -/
theorem score_body_apply (P : FVec Ideal S2000x128 .f32) (xa : FVec Ideal S128x1 .f32) (xb : FVec Ideal S1x1 .f32)
    (p : Fin 2000) (q : Fin 1) :
    addf (FloatOps.matmul dot_S2000x128_S128x1_S2000x1_1_0_0_1_n_n none P xa (constant (F := Ideal) S2000x1 .f32 0x00000000#32))
        (broadcastTo S2000x1 xb broadcasts_S1x1_S2000x1) (ix2 p q)
      = (∑ d : Fin 128, P (ix2 p d) * xa (ix2 d 0)) + xb (ix2 0 0) := by
  obtain rfl : q = 0 := Subsingleton.elim _ _
  rw [addf_apply, Ideal.matmul_constant_zero_apply,
    broadcastTo_apply xb broadcasts_S1x1_S2000x1 (ix2 p 0) (ix2 0 0)
      (fun a => by match a with | ⟨0, _⟩ => rfl | ⟨1, _⟩ => rfl),
    ← Equiv.sum_comp (contrEquiv1 dot_S2000x128_S128x1_S2000x1_1_0_0_1_n_n 128 rfl rfl).symm]
  refine congrArg (· + xb (ix2 0 0)) (Finset.sum_congr rfl fun k _ => ?_)
  have hk := contrEquiv1_symm_val dot_S2000x128_S128x1_S2000x1_1_0_0_1_n_n 128 rfl rfl k
  have hl : dot_S2000x128_S128x1_S2000x1_1_0_0_1_n_n.lhsIdx (ix2 p 0)
      ((contrEquiv1 dot_S2000x128_S128x1_S2000x1_1_0_0_1_n_n 128 rfl rfl).symm k) = ix2 p k := by
    funext a; apply Fin.ext
    match a with
    | ⟨0, _⟩ => exact lhs_score_0 _ _
    | ⟨1, _⟩ => exact (lhs_score_1 _ _).trans hk
  have hr : dot_S2000x128_S128x1_S2000x1_1_0_0_1_n_n.rhsIdx (ix2 p 0)
      ((contrEquiv1 dot_S2000x128_S128x1_S2000x1_1_0_0_1_n_n 128 rfl rfl).symm k) = ix2 k 0 := by
    funext a; apply Fin.ext
    match a with
    | ⟨0, _⟩ => exact (rhs_score_0 _ _).trans hk
    | ⟨1, _⟩ => exact rhs_score_1 _ _
  rw [hl, hr]

/-- The first score payload at row p. -/
theorem pay_score1_apply (x0 : Vec Ideal S2000x128 .f32) (x1 : Vec Ideal S128x128 .f32) (xa : Vec Ideal S128x1 .f32)
    (xb : Vec Ideal S1x1 .f32) (p : Fin 2000) (q : Fin 1) :
    k0_pay2 x0 x1 xa xb (ix2 p q)
      = (∑ d : Fin 128, (∑ k : Fin 128, x0 (ix2 p k) * x1 (ix2 k d)) * xa (ix2 d 0)) + xb (ix2 0 0) := by
  unfold k0_pay2
  simp only [matmul, shapeCast_self]
  rw [score_body_apply]
  simp only [pay_proj_apply]

/-- The second score payload at row p: the same operations. -/
theorem pay_score2_apply (x0 : Vec Ideal S2000x128 .f32) (x1 : Vec Ideal S128x128 .f32) (xa : Vec Ideal S128x1 .f32)
    (xb : Vec Ideal S1x1 .f32) (p : Fin 2000) (q : Fin 1) :
    k0_pay3 x0 x1 xa xb (ix2 p q)
      = (∑ d : Fin 128, (∑ k : Fin 128, x0 (ix2 p k) * x1 (ix2 k d)) * xa (ix2 d 0)) + xb (ix2 0 0) := by
  unfold k0_pay3
  simp only [matmul, shapeCast_self]
  rw [score_body_apply]
  simp only [pay_proj_apply]

/-! ## Where each window's block sits -/

theorem off_zero : (![0, 0] : Fin 2 → Nat) = fun _ => 0 := funext fun a => by fin_cases a <;> rfl

/-- The index maps, decided over the grid: the feature block and the three output blocks sit at row block `t`,
    column block 0; the five whole-array windows sit at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The feature block at point `t` is rows `2000 t … 2000 t + 1999` of the feature array. -/
theorem feat_block (c : Dev nD) (t : Fin cfg0.N) (p : Fin 2000) (k : Fin 128) (h : t.val * 2000 + p.val < 10000) :
    iblk0 V c 0 t (ix2 p k) = V c main_arg0 (ix2 ⟨t.val * 2000 + p.val, h⟩ k) := by
  show V c main_arg0 (((cfg0.win 0).blk t).view.emb (ix2 p k)) = _
  refine congrArg _ (funext fun a => Fin.ext ?_)
  obtain ⟨e0, e1, -⟩ := index_facts t
  match a with
  | ⟨0, _⟩ => show win0_0.index t (0 : Fin 2) * 2000 + 1 * p.val = t.val * 2000 + p.val; omega
  | ⟨1, _⟩ => show win0_0.index t (1 : Fin 2) * 128 + 1 * k.val = k.val; omega

/-- The weight window's block is the whole weight array, at every point. -/
theorem wt_block (c : Dev nD) (t : Fin cfg0.N) (z : S128x128.Idx) : iblk0 V c 1 t z = V c main_call0_v0 z := by
  show V c main_call0_v0 (((cfg0.win 1).blk t).view.emb z) = _
  refine congrArg _ (funext fun a => Fin.ext ?_)
  obtain ⟨-, -, e0, e1, -⟩ := index_facts t
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- The attention-vector and bias windows' blocks are their whole arrays, at every point. -/
theorem al_block (c : Dev nD) (t : Fin cfg0.N) (z : S128x1.Idx) : iblk0 V c 2 t z = V c main_call0_v1 z := by
  show V c main_call0_v1 (((cfg0.win 2).blk t).view.emb z) = _
  refine congrArg _ (funext fun a => Fin.ext ?_)
  obtain ⟨-, -, -, -, e0, e1, -⟩ := index_facts t
  match a with
  | ⟨0, _⟩ => show win0_2.index t (0 : Fin 2) * 128 + 1 * (z 0).val = (z 0).val; omega
  | ⟨1, _⟩ => show win0_2.index t (1 : Fin 2) * 1 + 1 * (z 1).val = (z 1).val; omega

/-- The second attention vector's. -/
theorem ar_block (c : Dev nD) (t : Fin cfg0.N) (z : S128x1.Idx) : iblk0 V c 3 t z = V c main_call0_v2 z := by
  show V c main_call0_v2 (((cfg0.win 3).blk t).view.emb z) = _
  refine congrArg _ (funext fun a => Fin.ext ?_)
  obtain ⟨-, -, -, -, -, -, e0, e1, -⟩ := index_facts t
  match a with
  | ⟨0, _⟩ => show win0_3.index t (0 : Fin 2) * 128 + 1 * (z 0).val = (z 0).val; omega
  | ⟨1, _⟩ => show win0_3.index t (1 : Fin 2) * 1 + 1 * (z 1).val = (z 1).val; omega

/-- The first bias's. -/
theorem bl_block (c : Dev nD) (t : Fin cfg0.N) (z : S1x1.Idx) : iblk0 V c 4 t z = V c main_call0_v3 z := by
  show V c main_call0_v3 (((cfg0.win 4).blk t).view.emb z) = _
  refine congrArg _ (funext fun a => Fin.ext ?_)
  obtain ⟨-, -, -, -, -, -, -, -, e0, e1, -⟩ := index_facts t
  match a with
  | ⟨0, _⟩ => show win0_4.index t (0 : Fin 2) * 1 + 1 * (z 0).val = (z 0).val; omega
  | ⟨1, _⟩ => show win0_4.index t (1 : Fin 2) * 1 + 1 * (z 1).val = (z 1).val; omega

/-- The second bias's. -/
theorem br_block (c : Dev nD) (t : Fin cfg0.N) (z : S1x1.Idx) : iblk0 V c 5 t z = V c main_call0_v4 z := by
  show V c main_call0_v4 (((cfg0.win 5).blk t).view.emb z) = _
  refine congrArg _ (funext fun a => Fin.ext ?_)
  obtain ⟨-, -, -, -, -, -, -, -, -, -, e0, e1, -⟩ := index_facts t
  match a with
  | ⟨0, _⟩ => show win0_5.index t (0 : Fin 2) * 1 + 1 * (z 0).val = (z 0).val; omega
  | ⟨1, _⟩ => show win0_5.index t (1 : Fin 2) * 1 + 1 * (z 1).val = (z 1).val; omega

/-- A score payload's value at block row `p` is `Gf` at array row `r`, for ANY attention column and bias blocks that
    hold their arrays, a weight block that holds the weight, and a feature block whose row `p` is the array's row `r`. -/
theorem score_point (feat : Vec Ideal S10000x128 .f32) (Wt : Vec Ideal S128x128 .f32) (aT : Vec Ideal S128x1 .f32)
    (b11 : Vec Ideal S1x1 .f32) (x0 : Vec Ideal S2000x128 .f32) (x1 : Vec Ideal S128x128 .f32)
    (xa : Vec Ideal S128x1 .f32) (xb : Vec Ideal S1x1 .f32) (r : Fin 10000) (p : Fin 2000) (q : Fin 1)
    (h0 : ∀ k : Fin 128, x0 (ix2 p k) = feat (ix2 r k)) (h1 : ∀ z, x1 z = Wt z)
    (ha : ∀ z, xa z = aT z) (hb : ∀ z, xb z = b11 z) :
    (∑ d : Fin 128, (∑ k : Fin 128, x0 (ix2 p k) * x1 (ix2 k d)) * xa (ix2 d 0)) + xb (ix2 0 0)
      = Gf feat Wt aT b11 (ix2 r q) := by
  rw [Gf_apply]
  simp only [h0, h1, ha, hb]

/-! ## The projected features (window 6) -/

/-- What point `t` writes back to the projected-features array is block `t` of `Gseq` of the arrays the region finds. -/
theorem seq_flushed (c : Dev nD) (t : Fin cfg0.N) :
    (dat0 V c).flushed 6 t = ((cfg0.win 6).blk t).view.read (Elt Ideal) (Gseq (V c main_arg0) (V c main_call0_v0)) := by
  show (cfg0.win 6).cut (grid0.coords t) ((dat0 V c).after 6 t) = _
  rw [after0_6]
  unfold out0_6
  rw [View.canon_unit_zero off_zero]
  simp only [View.ld_unit_zero (S := S2000x128) off_zero, View.ld_unit_zero (S := S128x128) off_zero]
  funext j
  obtain ⟨p, q, rfl⟩ : ∃ (p : Fin 2000) (q : Fin 128), j = ix2 p q := ⟨j 0, j 1, eq_ix2 j⟩
  have ht : t.val < 5 := t.isLt
  have hrow : t.val * 2000 + p.val < 10000 := by omega
  show k0_pay1 (iblk0 V c 0 t) (iblk0 V c 1 t) (ix2 p q)
    = Gseq (V c main_arg0) (V c main_call0_v0) (((cfg0.win 6).blk t).view.emb (ix2 p q))
  have hemb : ((cfg0.win 6).blk t).view.emb (ix2 p q) = ix2 ⟨t.val * 2000 + p.val, hrow⟩ q := by
    funext a; apply Fin.ext
    obtain ⟨-, -, -, -, -, -, -, -, -, -, -, -, e0, e1, -⟩ := index_facts t
    match a with
    | ⟨0, _⟩ => show win0_6.index t (0 : Fin 2) * 2000 + 1 * p.val = t.val * 2000 + p.val; omega
    | ⟨1, _⟩ => show win0_6.index t (1 : Fin 2) * 128 + 1 * q.val = q.val; omega
  rw [hemb, pay_proj_apply, Gseq_apply]
  exact Finset.sum_congr rfl fun k _ => by rw [feat_block V c t p k hrow, wt_block]

/-- An index of the projected-features array is in point `t`'s block iff each coordinate is in the block's range. -/
theorem seq_mem_blk (t : Fin cfg0.N) (i : S10000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_call0_v5_0).slice (win0_6.rect t)).set ↔ _
  rw [View.set_slice_whole, Rect.mem_set_unit]
  exact Iff.rfl

/-- Every index is in some point's block: row `r` is in the block of point `r / 2000`. -/
theorem seq_cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 5 := N_0
  obtain ⟨t, ht⟩ : ∃ t : Fin cfg0.N, t.val = (i 0).val / 2000 := ⟨⟨(i 0).val / 2000, by omega⟩, rfl⟩
  refine ⟨t, flush0_6 t, ?_⟩
  rw [seq_mem_blk]
  obtain ⟨-, -, -, -, -, -, -, -, -, -, -, -, e0, e1, -⟩ := index_facts t
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 128 ≤ (i 1).val ∧ (i 1).val < win0_6.index t (1 : Fin 2) * 128 + 128
    omega

/-! ## The two score columns (windows 7 and 8) -/

/-- What point `t` writes back to the first score column is block `t` of `Gf` of the arrays the region finds. -/
theorem f1_flushed (c : Dev nD) (t : Fin cfg0.N) :
    (dat0 V c).flushed 7 t = ((cfg0.win 7).blk t).view.read (Elt Ideal)
      (Gf (V c main_arg0) (V c main_call0_v0) (V c main_call0_v1) (V c main_call0_v3)) := by
  show (cfg0.win 7).cut (grid0.coords t) ((dat0 V c).after 7 t) = _
  rw [after0_7]
  unfold out0_7
  rw [View.canon_unit_zero off_zero]
  simp only [View.ld_unit_zero (S := S2000x128) off_zero, View.ld_unit_zero (S := S128x128) off_zero,
    View.ld_unit_zero (S := S128x1) off_zero, View.ld_unit_zero (S := S1x1) off_zero]
  funext j
  obtain ⟨p, q, rfl⟩ : ∃ (p : Fin 2000) (q : Fin 1), j = ix2 p q := ⟨j 0, j 1, eq_ix2 j⟩
  have ht : t.val < 5 := t.isLt
  have hrow : t.val * 2000 + p.val < 10000 := by omega
  show k0_pay2 (iblk0 V c 0 t) (iblk0 V c 1 t) (iblk0 V c 2 t) (iblk0 V c 4 t) (ix2 p q)
    = Gf (V c main_arg0) (V c main_call0_v0) (V c main_call0_v1) (V c main_call0_v3) (((cfg0.win 7).blk t).view.emb (ix2 p q))
  have hemb : ((cfg0.win 7).blk t).view.emb (ix2 p q) = ix2 ⟨t.val * 2000 + p.val, hrow⟩ q := by
    funext a; apply Fin.ext
    obtain ⟨-, -, -, -, -, -, -, -, -, -, -, -, -, -, e0, e1, -⟩ := index_facts t
    match a with
    | ⟨0, _⟩ => show win0_7.index t (0 : Fin 2) * 2000 + 1 * p.val = t.val * 2000 + p.val; omega
    | ⟨1, _⟩ => show win0_7.index t (1 : Fin 2) * 1 + 1 * q.val = q.val; omega
  rw [hemb, pay_score1_apply]
  exact score_point _ _ _ _ _ _ _ _ _ p q (fun k => feat_block V c t p k hrow) (wt_block V c t) (al_block V c t) (bl_block V c t)

/-- An index of the first score column is in point `t`'s block iff each coordinate is in the block's range. -/
theorem f1_mem_blk (t : Fin cfg0.N) (i : S10000x1.Idx) :
    i ∈ ((cfg0.win 7).blk t).view.set ↔ ∀ a : Fin 2, win0_7.index t a * S2000x1.size a ≤ (i a).val
      ∧ (i a).val < win0_7.index t a * S2000x1.size a + S2000x1.size a := by
  show i ∈ ((View.whole main_call0_v5_1).slice (win0_7.rect t)).set ↔ _
  rw [View.set_slice_whole, Rect.mem_set_unit]
  exact Iff.rfl

/-- Every index of the first score column is in some point's block: row `r` is in the block of point `r / 2000`. -/
theorem f1_cover (i : S10000x1.Idx) :
    ∃ t : Fin cfg0.N, (cfg0.win 7).flush t = true ∧ i ∈ ((cfg0.win 7).blk t).view.set := by
  have hi0 : (i 0).val < 10000 := (i 0).isLt
  have hi1 : (i 1).val < 1 := (i 1).isLt
  have hN : cfg0.N = 5 := N_0
  obtain ⟨t, ht⟩ : ∃ t : Fin cfg0.N, t.val = (i 0).val / 2000 := ⟨⟨(i 0).val / 2000, by omega⟩, rfl⟩
  refine ⟨t, flush0_7 t, ?_⟩
  rw [f1_mem_blk]
  obtain ⟨-, -, -, -, -, -, -, -, -, -, -, -, -, -, e0, e1, -⟩ := index_facts t
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 1 ≤ (i 1).val ∧ (i 1).val < win0_7.index t (1 : Fin 2) * 1 + 1
    omega

/-- What point `t` writes back to the second score column is block `t` of `Gf` of the arrays the region finds. -/
theorem f2_flushed (c : Dev nD) (t : Fin cfg0.N) :
    (dat0 V c).flushed 8 t = ((cfg0.win 8).blk t).view.read (Elt Ideal)
      (Gf (V c main_arg0) (V c main_call0_v0) (V c main_call0_v2) (V c main_call0_v4)) := by
  show (cfg0.win 8).cut (grid0.coords t) ((dat0 V c).after 8 t) = _
  rw [after0_8]
  unfold out0_8
  rw [View.canon_unit_zero off_zero]
  simp only [View.ld_unit_zero (S := S2000x128) off_zero, View.ld_unit_zero (S := S128x128) off_zero,
    View.ld_unit_zero (S := S128x1) off_zero, View.ld_unit_zero (S := S1x1) off_zero]
  funext j
  obtain ⟨p, q, rfl⟩ : ∃ (p : Fin 2000) (q : Fin 1), j = ix2 p q := ⟨j 0, j 1, eq_ix2 j⟩
  have ht : t.val < 5 := t.isLt
  have hrow : t.val * 2000 + p.val < 10000 := by omega
  show k0_pay3 (iblk0 V c 0 t) (iblk0 V c 1 t) (iblk0 V c 3 t) (iblk0 V c 5 t) (ix2 p q)
    = Gf (V c main_arg0) (V c main_call0_v0) (V c main_call0_v2) (V c main_call0_v4) (((cfg0.win 8).blk t).view.emb (ix2 p q))
  have hemb : ((cfg0.win 8).blk t).view.emb (ix2 p q) = ix2 ⟨t.val * 2000 + p.val, hrow⟩ q := by
    funext a; apply Fin.ext
    obtain ⟨-, -, -, -, -, -, -, -, -, -, -, -, -, -, -, -, e0, e1⟩ := index_facts t
    match a with
    | ⟨0, _⟩ => show win0_8.index t (0 : Fin 2) * 2000 + 1 * p.val = t.val * 2000 + p.val; omega
    | ⟨1, _⟩ => show win0_8.index t (1 : Fin 2) * 1 + 1 * q.val = q.val; omega
  rw [hemb, pay_score2_apply]
  exact score_point _ _ _ _ _ _ _ _ _ p q (fun k => feat_block V c t p k hrow) (wt_block V c t) (ar_block V c t) (br_block V c t)

/-- An index of the second score column is in point `t`'s block iff each coordinate is in the block's range. -/
theorem f2_mem_blk (t : Fin cfg0.N) (i : S10000x1.Idx) :
    i ∈ ((cfg0.win 8).blk t).view.set ↔ ∀ a : Fin 2, win0_8.index t a * S2000x1.size a ≤ (i a).val
      ∧ (i a).val < win0_8.index t a * S2000x1.size a + S2000x1.size a := by
  show i ∈ ((View.whole main_call0_v5_2).slice (win0_8.rect t)).set ↔ _
  rw [View.set_slice_whole, Rect.mem_set_unit]
  exact Iff.rfl

/-- Every index of the second score column is in some point's block: row `r` is in the block of point `r / 2000`. -/
theorem f2_cover (i : S10000x1.Idx) :
    ∃ t : Fin cfg0.N, (cfg0.win 8).flush t = true ∧ i ∈ ((cfg0.win 8).blk t).view.set := by
  have hi0 : (i 0).val < 10000 := (i 0).isLt
  have hi1 : (i 1).val < 1 := (i 1).isLt
  have hN : cfg0.N = 5 := N_0
  obtain ⟨t, ht⟩ : ∃ t : Fin cfg0.N, t.val = (i 0).val / 2000 := ⟨⟨(i 0).val / 2000, by omega⟩, rfl⟩
  refine ⟨t, flush0_8 t, ?_⟩
  rw [f2_mem_blk]
  obtain ⟨-, -, -, -, -, -, -, -, -, -, -, -, -, -, -, -, e0, e1⟩ := index_facts t
  intro a
  match a with
  | ⟨0, _⟩ =>
    show win0_8.index t (0 : Fin 2) * 2000 ≤ (i 0).val ∧ (i 0).val < win0_8.index t (0 : Fin 2) * 2000 + 2000
    omega
  | ⟨1, _⟩ =>
    show win0_8.index t (1 : Fin 2) * 1 ≤ (i 1).val ∧ (i 1).val < win0_8.index t (1 : Fin 2) * 1 + 1
    omega

end Proj

theorem seq_final (c : Dev nD) :
    (dat0 V c).arrAt 6 cfg0.N = Gseq (V c main_arg0) (V c main_call0_v0) := by
  exact (dat0 V c).arrAt_eq_of_cover 6 (Gseq (V c main_arg0) (V c main_call0_v0))
    (fun t _ => Proj.seq_flushed V c t) Proj.seq_cover

theorem f1_final (c : Dev nD) :
    (dat0 V c).arrAt 7 cfg0.N = Gf (V c main_arg0) (V c main_call0_v0) (V c main_call0_v1) (V c main_call0_v3) := by
  exact (dat0 V c).arrAt_eq_of_cover 7 (Gf (V c main_arg0) (V c main_call0_v0) (V c main_call0_v1) (V c main_call0_v3))
    (fun t _ => Proj.f1_flushed V c t) Proj.f1_cover

theorem f2_final (c : Dev nD) :
    (dat0 V c).arrAt 8 cfg0.N = Gf (V c main_arg0) (V c main_call0_v0) (V c main_call0_v2) (V c main_call0_v4) := by
  exact (dat0 V c).arrAt_eq_of_cover 8 (Gf (V c main_arg0) (V c main_call0_v0) (V c main_call0_v2) (V c main_call0_v4))
    (fun t _ => Proj.f2_flushed V c t) Proj.f2_cover

end Cert.KernelIdeal.KVal

end
-- ==== Proof.KVal1.lean ====
/-
  Region 1 (the attention): what its output array holds after the region, as a whole-array function of the arrays
  the region finds. The body's arithmetic on a block of 200 rows is read entry by entry (the masked leaky logits, each
  row's maximum and sum over its 10000 lanes, the weights against the features, the quotient, the bias, elu); row `p` of
  the block at grid point `t` is row `200·t + p` of the arrays, and the 50 blocks tile the 10000 rows.
-/
import proofs.«122394_g61658550502133_cont_9to1_m_383_3_alg».proof.Proof.Gen.KernelIdeal.Frame
import proofs.«122394_g61658550502133_cont_9to1_m_383_3_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx
open Idealize.SL.Sem Cert.AttnSpec
open Idealize.ShloMosaic.Pipeline (Dat)

variable (V : (c : Dev nD) → (b : Ref sig .tc) → Buf (Elt Ideal) ((c : Thread nD τ).loc b))

/-- The attention output from the adjacency, the first score (a column), the second score laid as a ROW, the projected
    features and the bias laid as a row. -/
def Gout (adj : Vec Ideal S10000x10000 .f32) (f1 : Vec Ideal S10000x1 .f32) (f2t : Vec Ideal S1x10000 .f32)
    (sq : Vec Ideal S10000x128 .f32) (b : Vec Ideal S1x128 .f32) : Vec Ideal S10000x128 .f32 :=
  fun j => eluK (aggK (xK (fun i => f1 (ix2 i 0)) (fun jj => f2t (ix2 0 jj)) (cur2 adj)) (cur2 sq) (fun d => b (ix2 0 d)) (j 0) (j 1))

open scoped BigOperators

namespace Attn

/-- The masked leaky logits of a row block, as the body's operations build them. -/
def xV (v0 : Vec Ideal S200x1 .f32) (v2 : Vec Ideal S1x10000 .f32) (v10 : Vec Ideal S200x10000 .f32) :
    FVec Ideal S200x10000 .f32 :=
  have v1 : FVec Ideal S200x1 .f32 := shapeCast S200x1 v0 shapeCasts_S200x1_S200x1
  have v3 : FVec Ideal S1x10000 .f32 := shapeCast S1x10000 v2 shapeCasts_S1x10000_S1x10000
  have v4 : FVec Ideal S200x10000 .f32 := broadcastTo S200x10000 v1 broadcasts_S200x1_S200x10000
  have v5 : FVec Ideal S200x10000 .f32 := broadcastTo S200x10000 v3 broadcasts_S1x10000_S200x10000
  have v6 : FVec Ideal S200x10000 .f32 := addf v4 v5
  have cst : Ideal .f32 := Scalar.ofBits .f32 0x3E4CCCCD#32
  have v7 : FVec Ideal S200x10000 .f32 := broadcast S200x10000 cst
  have v8 : FVec Ideal S200x10000 .f32 := mulf v7 v6
  have v9 : FVec Ideal S200x10000 .f32 := maximumf v6 v8
  have cst_5 : Ideal .f32 := Scalar.ofBits .f32 0x3F800000#32
  have v11 : FVec Ideal S200x10000 .f32 := broadcast S200x10000 cst_5
  have v12 : FVec Ideal S200x10000 .f32 := subf v11 v10
  have cst_6 : Ideal .f32 := Scalar.ofBits .f32 0x4E6E6B28#32
  have v13 : FVec Ideal S200x10000 .f32 := broadcast S200x10000 cst_6
  have v14 : FVec Ideal S200x10000 .f32 := mulf v13 v12
  subf v9 v14

/-- The unnormalised weights: each logit less its row's maximum, exponentiated. -/
def eV (v15 : FVec Ideal S200x10000 .f32) : FVec Ideal S200x10000 .f32 :=
  have v16 : FVec Ideal S200 .f32 := multiReduction .maximumf [1] S200 v15 0xFF800000#32 reduces_S200x10000_S200 (.inl rfl) rfl
  have v17 : FVec Ideal S200x1 .f32 := shapeCast S200x1 v16 shapeCasts_S200_S200x1
  have v18 : FVec Ideal S200x10000 .f32 := broadcastTo S200x10000 v17 broadcasts_S200x1_S200x10000
  have v19 : FVec Ideal S200x10000 .f32 := subf v15 v18
  exp v19

/-- The weighted mean of the features, plus the bias. -/
def oV (v20 : FVec Ideal S200x10000 .f32) (v23 : Vec Ideal S10000x128 .f32) (v28 : Vec Ideal S1x128 .f32) : FVec Ideal S200x128 .f32 :=
  have v21 : FVec Ideal S200 .f32 := multiReduction .add [1] S200 v20 0x00000000#32 reduces_S200x10000_S200 (.inl rfl) rfl
  have v22 : FVec Ideal S200x1 .f32 := shapeCast S200x1 v21 shapeCasts_S200_S200x1
  have v24 : FVec Ideal S10000x128 .f32 := shapeCast S10000x128 v23 shapeCasts_S10000x128_S10000x128
  have cst_11 : FVec Ideal S200x128 .f32 := constant S200x128 .f32 0x00000000#32
  have v25 : FVec Ideal S200x128 .f32 := matmul dot_S200x10000_S10000x128_S200x128_1_0_0_1_n_n none v20 v24 cst_11
  have v26 : FVec Ideal S200x128 .f32 := broadcastTo S200x128 v22 broadcasts_S200x1_S200x128
  have v27 : FVec Ideal S200x128 .f32 := divf v25 v26
  have v29 : FVec Ideal S1x128 .f32 := shapeCast S1x128 v28 shapeCasts_S1x128_S1x128
  have v30 : FVec Ideal S200x128 .f32 := broadcastTo S200x128 v29 broadcasts_S1x128_S200x128
  addf v27 v30

/-- elu, entry by entry. -/
def eluV (v31 : FVec Ideal S200x128 .f32) : FVec Ideal S200x128 .f32 :=
  have cst_14 : Ideal .f32 := Scalar.ofBits .f32 0x00000000#32
  have v32 : FVec Ideal S200x128 .f32 := broadcast S200x128 cst_14
  have v33 : IVec S200x128 1 := cmpf .ogt v31 v32
  have cst_15 : Ideal .f32 := Scalar.ofBits .f32 0x00000000#32
  have v34 : FVec Ideal S200x128 .f32 := broadcast S200x128 cst_15
  have v35 : FVec Ideal S200x128 .f32 := minimumf v31 v34
  have v36 : FVec Ideal S200x128 .f32 := exp v35
  have cst_16 : Ideal .f32 := Scalar.ofBits .f32 0x3F800000#32
  have v37 : FVec Ideal S200x128 .f32 := broadcast S200x128 cst_16
  have v38 : FVec Ideal S200x128 .f32 := subf v36 v37
  select v33 v31 v38

theorem pay_stages (f1B : Vec Ideal S200x1 .f32) (f2t : Vec Ideal S1x10000 .f32) (adjB : Vec Ideal S200x10000 .f32)
    (sq : Vec Ideal S10000x128 .f32) (b : Vec Ideal S1x128 .f32) :
    (k1_pay1 (F := Ideal)) f1B f2t adjB sq b = eluV (oV (eV (xV f1B f2t adjB)) sq b) := rfl

/-! ### Keepdims layout forms -/

/-- A column `[a, 1]` broadcast along the lanes to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ### The logits at an entry -/

theorem xV_apply (f1B : Vec Ideal S200x1 .f32) (f2t : Vec Ideal S1x10000 .f32) (adjB : Vec Ideal S200x10000 .f32)
    (p : Fin 200) (jj : Fin 10000) :
    xV f1B f2t adjB (ix2 p jj)
      = max (f1B (ix2 p 0) + f2t (ix2 0 jj)) (leak * (f1B (ix2 p 0) + f2t (ix2 0 jj))) - big * (one - adjB (ix2 p jj)) := by
  unfold xV
  simp only [subf_apply, maximumf_apply, addf_apply, mulf_apply, broadcast_apply, shapeCast_self]
  rw [broadcastTo_a1_ab_apply, broadcastTo_1b_ab_apply]
  rfl

/-! ### The lane reductions of a row -/

/-- The index a lane reduction inserts coordinate `k` into, at row `p`. -/
theorem lift_row (p : Fin 200) (k : Fin 10000) :
    reduces_S200x10000_S200.lift (ix1 p) k = ix2 p k := by
  funext a; apply Fin.ext
  match a with
  | ⟨0, _⟩ => rfl
  | ⟨1, _⟩ => rfl

theorem rowmax_apply (x : FVec Ideal S200x10000 .f32) (p : Fin 200) :
    multiReduction (F := Ideal) .maximumf [1] S200 x 0xFF800000#32 reduces_S200x10000_S200 (.inl rfl) rfl (ix1 p)
      = (Finset.univ : Finset (Fin 10000)).fold max (Ideal.ofBits .f32 0xFF800000#32) (fun jj => x (ix2 p jj)) := by
  refine (Ideal.multiReduction_maximumf_single x 0xFF800000#32 reduces_S200x10000_S200 (.inl rfl) rfl (ix1 p)).trans ?_
  show (Finset.univ : Finset (Fin 10000)).fold max (Ideal.ofBits .f32 0xFF800000#32)
    (fun k : Fin 10000 => x (reduces_S200x10000_S200.lift (ix1 p) k)) = _
  simp only [lift_row]

theorem rowsum_apply (x : FVec Ideal S200x10000 .f32) (p : Fin 200) :
    multiReduction (F := Ideal) .add [1] S200 x 0x00000000#32 reduces_S200x10000_S200 (.inl rfl) rfl (ix1 p)
      = ∑ jj : Fin 10000, x (ix2 p jj) := by
  refine (Ideal.multiReduction_add_single x 0x00000000#32 reduces_S200x10000_S200 (.inl rfl) rfl (ix1 p)).trans ?_
  show ∑ k : Fin 10000, x (reduces_S200x10000_S200.lift (ix1 p) k) = _
  simp only [lift_row]

/-! ### The weights against the features: the block product at an entry -/

theorem lhs_dot_0 (j : S200x128.Idx) (k : dot_S200x10000_S10000x128_S200x128_1_0_0_1_n_n.contr.Idx) :
    (dot_S200x10000_S10000x128_S200x128_1_0_0_1_n_n.lhsIdx j k (0 : Fin 2)).val = (j (0 : Fin 2)).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl

theorem lhs_dot_1 (j : S200x128.Idx) (k : dot_S200x10000_S10000x128_S200x128_1_0_0_1_n_n.contr.Idx) :
    (dot_S200x10000_S10000x128_S200x128_1_0_0_1_n_n.lhsIdx j k (1 : Fin 2)).val = (k ⟨0, by decide⟩).val :=
  dot_S200x10000_S10000x128_S200x128_1_0_0_1_n_n.lhsIdx_val_of_single rfl j k

theorem rhs_dot_0 (j : S200x128.Idx) (k : dot_S200x10000_S10000x128_S200x128_1_0_0_1_n_n.contr.Idx) :
    (dot_S200x10000_S10000x128_S200x128_1_0_0_1_n_n.rhsIdx j k (0 : Fin 2)).val = (k ⟨0, by decide⟩).val :=
  dot_S200x10000_S10000x128_S200x128_1_0_0_1_n_n.rhsIdx_val_of_single rfl j k

theorem rhs_dot_1 (j : S200x128.Idx) (k : dot_S200x10000_S10000x128_S200x128_1_0_0_1_n_n.contr.Idx) :
    (dot_S200x10000_S10000x128_S200x128_1_0_0_1_n_n.rhsIdx j k (1 : Fin 2)).val = (j (1 : Fin 2)).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

theorem matmul_row_apply (e : FVec Ideal S200x10000 .f32) (s : FVec Ideal S10000x128 .f32) (p : Fin 200) (q : Fin 128) :
    matmul dot_S200x10000_S10000x128_S200x128_1_0_0_1_n_n none e s (constant (F := Ideal) S200x128 .f32 0x00000000#32) (ix2 p q)
      = ∑ jj : Fin 10000, e (ix2 p jj) * s (ix2 jj q) := by
  refine (Ideal.matmul_constant_zero_apply dot_S200x10000_S10000x128_S200x128_1_0_0_1_n_n none e s (ix2 p q)).trans ?_
  rw [← Equiv.sum_comp (contrEquiv1 dot_S200x10000_S10000x128_S200x128_1_0_0_1_n_n 10000 rfl rfl).symm]
  refine Finset.sum_congr rfl fun c _ => ?_
  have hk := contrEquiv1_symm_val dot_S200x10000_S10000x128_S200x128_1_0_0_1_n_n 10000 rfl rfl c
  have hl : dot_S200x10000_S10000x128_S200x128_1_0_0_1_n_n.lhsIdx (ix2 p q)
      ((contrEquiv1 dot_S200x10000_S10000x128_S200x128_1_0_0_1_n_n 10000 rfl rfl).symm c) = ix2 p c := by
    funext ax; apply Fin.ext
    match ax with
    | ⟨0, _⟩ => exact lhs_dot_0 _ _
    | ⟨1, _⟩ => exact (lhs_dot_1 _ _).trans hk
  have hr : dot_S200x10000_S10000x128_S200x128_1_0_0_1_n_n.rhsIdx (ix2 p q)
      ((contrEquiv1 dot_S200x10000_S10000x128_S200x128_1_0_0_1_n_n 10000 rfl rfl).symm c) = ix2 c q := by
    funext ax; apply Fin.ext
    match ax with
    | ⟨0, _⟩ => exact (rhs_dot_0 _ _).trans hk
    | ⟨1, _⟩ => exact rhs_dot_1 _ _
  rw [hl, hr]

/-! ### The stages at an entry -/

/-- An exponential at an index is the exponential of the element. -/
theorem exp_apply {s : Shape} {φ : FTy} (x : FVec Ideal s φ) (i : s.Idx) : exp x i = Ideal.exp (x i) := rfl

/-- The unnormalised weight at an entry: the logit less its row's maximum, exponentiated. -/
theorem eV_apply (x : FVec Ideal S200x10000 .f32) (p : Fin 200) (jj : Fin 10000) :
    eV x (ix2 p jj) = Ideal.exp (x (ix2 p jj) - rmax (fun k => x (ix2 p k))) := by
  unfold eV
  simp only [exp_apply, subf_apply]
  rw [broadcastTo_a1_ab_apply, shapeCast_a_a1_apply, rowmax_apply]
  rfl

/-- The weighted mean plus the bias at an entry. -/
theorem oV_apply (e : FVec Ideal S200x10000 .f32) (sq : Vec Ideal S10000x128 .f32) (b : Vec Ideal S1x128 .f32)
    (p : Fin 200) (q : Fin 128) :
    oV e sq b (ix2 p q)
      = Ideal.div (∑ jj : Fin 10000, e (ix2 p jj) * sq (ix2 jj q)) (∑ jj : Fin 10000, e (ix2 p jj)) + b (ix2 0 q) := by
  unfold oV
  simp only [addf_apply, divf_apply, shapeCast_self]
  rw [matmul_row_apply, broadcastTo_a1_ab_apply, shapeCast_a_a1_apply, rowsum_apply, broadcastTo_1b_ab_apply]

/-- elu at an entry. -/
theorem eluV_apply (o : FVec Ideal S200x128 .f32) (j : S200x128.Idx) : eluV o j = eluK (o j) := rfl

/-- THE BODY'S RESULT AT AN ENTRY `(p, q)` of the row block: the attention value of the block's row `p`, feature `q`. -/
theorem pay_apply (f1B : Vec Ideal S200x1 .f32) (f2t : Vec Ideal S1x10000 .f32) (adjB : Vec Ideal S200x10000 .f32)
    (sq : Vec Ideal S10000x128 .f32) (b : Vec Ideal S1x128 .f32) (p : Fin 200) (q : Fin 128) :
    (k1_pay1 (F := Ideal)) f1B f2t adjB sq b (ix2 p q)
      = eluK (Ideal.div
          (∑ jj : Fin 10000, Ideal.exp (xV f1B f2t adjB (ix2 p jj) - rmax (fun k => xV f1B f2t adjB (ix2 p k))) * sq (ix2 jj q))
          (∑ jj : Fin 10000, Ideal.exp (xV f1B f2t adjB (ix2 p jj) - rmax (fun k => xV f1B f2t adjB (ix2 p k))))
        + b (ix2 0 q)) := by
  rw [pay_stages, eluV_apply, oV_apply]
  simp only [eV_apply]

/-! ### From the row block to the whole arrays -/

/-- The body's result at entry `(p, q)` of a row block, when the block's row `p` is row `r` of the adjacency and of the
    first score and the other three operands are the whole arrays: the attention output at `(r, q)`. -/
theorem pay_eq_Gout (adj : Vec Ideal S10000x10000 .f32) (f1 : Vec Ideal S10000x1 .f32) (f2t : Vec Ideal S1x10000 .f32)
    (sq : Vec Ideal S10000x128 .f32) (b : Vec Ideal S1x128 .f32)
    (adjB : Vec Ideal S200x10000 .f32) (f1B : Vec Ideal S200x1 .f32) (f2B : Vec Ideal S1x10000 .f32)
    (sqB : Vec Ideal S10000x128 .f32) (bB : Vec Ideal S1x128 .f32) (r : Fin 10000) (p : Fin 200) (q : Fin 128)
    (hadj : ∀ jj : Fin 10000, adjB (ix2 p jj) = adj (ix2 r jj)) (hf1 : f1B (ix2 p 0) = f1 (ix2 r 0))
    (hf2 : ∀ jj : Fin 10000, f2B (ix2 0 jj) = f2t (ix2 0 jj))
    (hsq : ∀ (jj : Fin 10000) (d : Fin 128), sqB (ix2 jj d) = sq (ix2 jj d))
    (hb : ∀ d : Fin 128, bB (ix2 0 d) = b (ix2 0 d)) :
    (k1_pay1 (F := Ideal)) f1B f2B adjB sqB bB (ix2 p q) = Gout adj f1 f2t sq b (ix2 r q) := by
  rw [pay_apply]
  have hx : ∀ jj : Fin 10000, xV f1B f2B adjB (ix2 p jj)
      = xK (fun i => f1 (ix2 i 0)) (fun jj => f2t (ix2 0 jj)) (cur2 adj) r jj := fun jj => by
    rw [xV_apply, hadj, hf1, hf2]; rfl
  simp only [hx, hsq, hb]
  rfl

/-! ### What each grid point writes back, and the array after the region -/

theorem zero_offsets : (![0, 0] : Fin 2 → Nat) = fun _ => 0 :=
  funext fun a => match a with | ⟨0, _⟩ => rfl | ⟨1, _⟩ => rfl

/-- The printed index maps, decided over the 50 grid points: the adjacency's, the first score's and the output's row block is
    the point's own; the second score, the features and the bias are read whole. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is row block `t` of the attention output of the arrays the region finds. -/
theorem flushed_eq (c : Dev nD) (t : Fin cfg1.N) :
    (dat1 V c).flushed 5 t = ((cfg1.win 5).blk t).view.read (Elt Ideal)
      (Gout (V c main_arg1) (V c main_call0_v5_1) (V c main_call0_v6) (V c main_call0_v5_0) (V c main_call0_v7)) := by
  show (cfg1.win 5).cut (grid1.coords t) ((dat1 V c).after 5 t) = _
  rw [after1_5]
  unfold out1_5
  rw [View.canon_unit_zero zero_offsets]
  simp only [View.ld_unit_zero (S := S200x1) zero_offsets, View.ld_unit_zero (S := S1x10000) zero_offsets,
    View.ld_unit_zero (S := S200x10000) zero_offsets, View.ld_unit_zero (S := S10000x128) zero_offsets,
    View.ld_unit_zero (S := S1x128) zero_offsets]
  obtain ⟨e00, e01, e10, e11, e20, e21, e30, e31, e40, e41, e50, e51⟩ := block_indices t
  have ht : t.val < 50 := t.isLt
  funext j
  obtain ⟨p, q, rfl⟩ : ∃ (p : Fin 200) (q : Fin 128), j = ix2 p q := ⟨j 0, j 1, eq_ix2 j⟩
  have hp : p.val < 200 := p.isLt
  have hr : t.val * 200 + p.val < 10000 := by omega
  show (k1_pay1 (F := Ideal)) (iblk1 V c 1 t) (iblk1 V c 2 t) (iblk1 V c 0 t) (iblk1 V c 3 t) (iblk1 V c 4 t) (ix2 p q)
    = Gout (V c main_arg1) (V c main_call0_v5_1) (V c main_call0_v6) (V c main_call0_v5_0) (V c main_call0_v7)
        (((cfg1.win 5).blk t).view.emb (ix2 p q))
  have hemb : ((cfg1.win 5).blk t).view.emb (ix2 p q) = ix2 (⟨t.val * 200 + p.val, hr⟩ : Fin 10000) q := by
    funext a; apply Fin.ext
    match a with
    | ⟨0, _⟩ => show win1_5.index t (0 : Fin 2) * 200 + 1 * p.val = t.val * 200 + p.val; omega
    | ⟨1, _⟩ => show win1_5.index t (1 : Fin 2) * 128 + 1 * q.val = q.val; omega
  rw [hemb]
  refine pay_eq_Gout (V c main_arg1) (V c main_call0_v5_1) (V c main_call0_v6) (V c main_call0_v5_0) (V c main_call0_v7)
    (iblk1 V c 0 t) (iblk1 V c 1 t) (iblk1 V c 2 t) (iblk1 V c 3 t) (iblk1 V c 4 t) ⟨t.val * 200 + p.val, hr⟩ p q ?_ ?_ ?_ ?_ ?_
  · intro jj
    show V c main_arg1 (((cfg1.win 0).blk t).view.emb (ix2 p jj)) = V c main_arg1 (ix2 (⟨t.val * 200 + p.val, hr⟩ : Fin 10000) jj)
    refine congrArg _ (funext fun a => Fin.ext ?_)
    match a with
    | ⟨0, _⟩ => show win1_0.index t (0 : Fin 2) * 200 + 1 * p.val = t.val * 200 + p.val; omega
    | ⟨1, _⟩ => show win1_0.index t (1 : Fin 2) * 10000 + 1 * jj.val = jj.val; omega
  · show V c main_call0_v5_1 (((cfg1.win 1).blk t).view.emb (ix2 p 0)) = V c main_call0_v5_1 (ix2 (⟨t.val * 200 + p.val, hr⟩ : Fin 10000) 0)
    refine congrArg _ (funext fun a => Fin.ext ?_)
    match a with
    | ⟨0, _⟩ => show win1_1.index t (0 : Fin 2) * 200 + 1 * p.val = t.val * 200 + p.val; omega
    | ⟨1, _⟩ => show win1_1.index t (1 : Fin 2) * 1 + 1 * 0 = 0; omega
  · intro jj
    show V c main_call0_v6 (((cfg1.win 2).blk t).view.emb (ix2 0 jj)) = V c main_call0_v6 (ix2 0 jj)
    refine congrArg _ (funext fun a => Fin.ext ?_)
    match a with
    | ⟨0, _⟩ => show win1_2.index t (0 : Fin 2) * 1 + 1 * 0 = 0; omega
    | ⟨1, _⟩ => show win1_2.index t (1 : Fin 2) * 10000 + 1 * jj.val = jj.val; omega
  · intro jj d
    show V c main_call0_v5_0 (((cfg1.win 3).blk t).view.emb (ix2 jj d)) = V c main_call0_v5_0 (ix2 jj d)
    refine congrArg _ (funext fun a => Fin.ext ?_)
    match a with
    | ⟨0, _⟩ => show win1_3.index t (0 : Fin 2) * 10000 + 1 * jj.val = jj.val; omega
    | ⟨1, _⟩ => show win1_3.index t (1 : Fin 2) * 128 + 1 * d.val = d.val; omega
  · intro d
    show V c main_call0_v7 (((cfg1.win 4).blk t).view.emb (ix2 0 d)) = V c main_call0_v7 (ix2 0 d)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * d.val = d.val; omega

/-- An index of the output array is in point `t`'s block iff each coordinate is in the block's range on its axis. -/
theorem mem_block (t : Fin cfg1.N) (i : S10000x128.Idx) :
    i ∈ ((cfg1.win 5).blk t).view.set ↔ ∀ a : Fin 2, win1_5.index t a * S200x128.size a ≤ (i a).val
      ∧ (i a).val < win1_5.index t a * S200x128.size a + S200x128.size a := by
  show i ∈ ((View.whole main_v0).slice (win1_5.rect t)).set ↔ _
  rw [View.set_slice_whole, Rect.mem_set_unit]
  exact Iff.rfl

/-- The 50 row blocks of 200 rows tile the 10000 rows: row `r` lies in the block of point `r / 200`. -/
theorem covered (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  have hlt : (i 0).val / 200 < 50 := by omega
  obtain ⟨-, -, -, -, -, -, -, -, -, -, e50, e51⟩ := block_indices ⟨(i 0).val / 200, hlt⟩
  refine ⟨⟨(i 0).val / 200, hlt⟩, flush1_5 _, ?_⟩
  rw [mem_block]
  intro a
  match a with
  | ⟨0, _⟩ =>
    show win1_5.index ⟨(i 0).val / 200, hlt⟩ (0 : Fin 2) * 200 ≤ (i 0).val
      ∧ (i 0).val < win1_5.index ⟨(i 0).val / 200, hlt⟩ (0 : Fin 2) * 200 + 200
    have e : win1_5.index ⟨(i 0).val / 200, hlt⟩ (0 : Fin 2) = (i 0).val / 200 := e50
    omega
  | ⟨1, _⟩ =>
    show win1_5.index ⟨(i 0).val / 200, hlt⟩ (1 : Fin 2) * 128 ≤ (i 1).val
      ∧ (i 1).val < win1_5.index ⟨(i 0).val / 200, hlt⟩ (1 : Fin 2) * 128 + 128
    omega

end Attn

theorem out_final (c : Dev nD) :
    (dat1 V c).arrAt 5 cfg1.N
      = Gout (V c main_arg1) (V c main_call0_v5_1) (V c main_call0_v6) (V c main_call0_v5_0) (V c main_call0_v7) := by
  exact (dat1 V c).arrAt_eq_of_cover 5
    (Gout (V c main_arg1) (V c main_call0_v5_1) (V c main_call0_v6) (V c main_call0_v5_0) (V c main_call0_v7))
    (fun t _ => Attn.flushed_eq V c t) Attn.covered

end Cert.KernelIdeal.KVal

end
-- ==== Proof.KGlue.lean ====
/-
  The kernel program's result, as a function of its arguments.

  @main runs: a host stretch (Wᵀ, a_lᵀ, a_rᵀ and the two scalar biases reshaped 1×1), region 0 (the projection: seq, f₁,
  f₂ by row blocks), a host stretch (f₂ relaid as a row, bias relaid as a row), region 1 (the attention, by row blocks).
  The generated frame names the buffer contents at the four boundaries (V1, W2, V3, W4). Here each array region 1 finds
  is traced back through those boundaries to the launch contents of the arguments:
    seq   = region 0's first output  = proj feat W            (Wᵀ read at (k, d) is W at (d, k))
    f₁    = region 0's second output = score seq a_l b_l       (a_lᵀ read at (d, 0) is a_l at (0, d); the 1×1 bias is b_l)
    f₂ row = region 0's third output relaid [n,1] → [1,n]      (the entry (0, j) is the column's entry (j, 0))
    adj, bias: the arguments themselves (bias relaid [128] → [1,128])
  so region 1's output, which is the result buffer, is the kernel's spelling `outKA` of the attention head.
-/
import proofs.«122394_g61658550502133_cont_9to1_m_383_3_alg».proof.Proof.Gen.KernelIdeal.Frame
import proofs.«122394_g61658550502133_cont_9to1_m_383_3_alg».proof.Proof.AttnSpec
import proofs.«122394_g61658550502133_cont_9to1_m_383_3_alg».proof.Proof.KVal0
import proofs.«122394_g61658550502133_cont_9to1_m_383_3_alg».proof.Proof.KVal1
import Idealize.ShloMosaic.Lib.StableHlo.Run
import Idealize.ShloMosaic.Lib.Pipeline.Value
import Idealize.ShloMosaic.Lib.ValueIdx

noncomputable section

namespace Cert.KernelIdeal.KGlue

open Cert.KernelIdeal Cert.KernelIdeal.Gen Idealize.ShloMosaic Idealize.ShloMosaic.TcCoe Idealize.ShloMosaic.ValueIdx
open Idealize.SL.Sem Cert.AttnSpec Idealize.ShloMosaic.StableHlo Cert.KernelIdeal.KVal

variable (m : (ℓ : Loc nD τ sig) → Buf (Elt Ideal) ℓ) (ρ : Dev nD → PrngReg)

/-! ## What region 0 finds: the first host stretch read back -/

theorem V1_feat (c : Dev nD) : V1 m ρ c main_arg0 = m ((c : Thread nD τ).loc main_arg0) := by
  show StableHlo.after hostOps0 (W0 m ρ c) (Proc.devRef .tc main_arg0) = _
  after_results

theorem V1_Wt (c : Dev nD) :
    (V1 m ρ c main_call0_v0 : S128x128.Idx → EReal)
      = transpose S128x128 [1, 0] (m ((c : Thread nD τ).loc main_arg2)) transposes_S128x128_S128x128_1_0 := by
  show StableHlo.after hostOps0 (W0 m ρ c) (Proc.devRef .tc main_call0_v0) = _
  after_results
  rfl

theorem V1_alT (c : Dev nD) :
    (V1 m ρ c main_call0_v1 : S128x1.Idx → EReal)
      = transpose S128x1 [1, 0] (m ((c : Thread nD τ).loc main_arg3)) transposes_S1x128_S128x1_1_0 := by
  show StableHlo.after hostOps0 (W0 m ρ c) (Proc.devRef .tc main_call0_v1) = _
  after_results
  rfl

theorem V1_arT (c : Dev nD) :
    (V1 m ρ c main_call0_v2 : S128x1.Idx → EReal)
      = transpose S128x1 [1, 0] (m ((c : Thread nD τ).loc main_arg5)) transposes_S1x128_S128x1_1_0 := by
  show StableHlo.after hostOps0 (W0 m ρ c) (Proc.devRef .tc main_call0_v2) = _
  after_results
  rfl

theorem V1_bl (c : Dev nD) :
    (V1 m ρ c main_call0_v3 : S1x1.Idx → EReal)
      = shapeCast S1x1 (m ((c : Thread nD τ).loc main_arg4)) shapeCasts_S1_S1x1 := by
  show StableHlo.after hostOps0 (W0 m ρ c) (Proc.devRef .tc main_call0_v3) = _
  after_results
  rfl

theorem V1_br (c : Dev nD) :
    (V1 m ρ c main_call0_v4 : S1x1.Idx → EReal)
      = shapeCast S1x1 (m ((c : Thread nD τ).loc main_arg6)) shapeCasts_S1_S1x1 := by
  show StableHlo.after hostOps0 (W0 m ρ c) (Proc.devRef .tc main_call0_v4) = _
  after_results
  rfl

/-- The transposed weight read at (k, d) is the weight at (d, k). -/
theorem Wt_apply (W : S128x128.Idx → EReal) (k d : Fin 128) :
    transpose S128x128 [1, 0] W transposes_S128x128_S128x128_1_0 (ix2 k d) = W (ix2 d k) :=
  transpose_apply _ W _ (ix2 k d) (ix2 d k) fun b => match b with | ⟨0, _⟩ => rfl | ⟨1, _⟩ => rfl

/-- A transposed attention vector, a column, read at (d, 0) is the vector at (0, d). -/
theorem aT_apply (a : S1x128.Idx → EReal) (d : Fin 128) :
    transpose S128x1 [1, 0] a transposes_S1x128_S128x1_1_0 (ix2 d 0) = a (ix2 0 d) :=
  transpose_apply _ a _ (ix2 d 0) (ix2 0 d) fun b => match b with | ⟨0, _⟩ => rfl | ⟨1, _⟩ => rfl

/-- A scalar bias relaid 1×1 is the scalar. -/
theorem b11_apply (b : S1.Idx → EReal) : shapeCast S1x1 b shapeCasts_S1_S1x1 (ix2 0 0) = b (ix1 0) :=
  shapeCast_apply b _ (ix2 0 0) (ix1 0) (by rw [Shape.rowMajor_val_one, Shape.rowMajor_val_two]; rfl)

/-! ## Region 0's outputs at the launch arguments -/

/-- Region 0's first output, entry by entry: the projected features. -/
theorem seq_apply (c : Dev nD) (jj : Fin 10000) (d : Fin 128) :
    (dat0 (V1 m ρ) c).arrAt 6 cfg0.N (ix2 jj d)
      = proj (cur2 (m ((c : Thread nD τ).loc main_arg0))) (cur2 (m ((c : Thread nD τ).loc main_arg2))) jj d := by
  rw [seq_final (V1 m ρ) c]
  unfold Gseq
  rw [V1_feat, V1_Wt]
  show proj _ _ jj d = _
  congr 1
  funext d k
  exact Wt_apply _ k d

/-- Region 0's second output: the first score. -/
theorem f1_apply (c : Dev nD) (i : Fin 10000) :
    (dat0 (V1 m ρ) c).arrAt 7 cfg0.N (ix2 i 0)
      = score (proj (cur2 (m ((c : Thread nD τ).loc main_arg0))) (cur2 (m ((c : Thread nD τ).loc main_arg2))))
          (row0 (m ((c : Thread nD τ).loc main_arg3))) (m ((c : Thread nD τ).loc main_arg4) (ix1 0)) i := by
  rw [f1_final (V1 m ρ) c]
  unfold Gf
  rw [V1_feat, V1_Wt, V1_alT, V1_bl]
  show score _ _ _ i = _
  congr 1
  · congr 1; funext d k; exact Wt_apply _ k d
  · funext d; exact aT_apply _ d
  · exact b11_apply _

/-- Region 0's third output: the second score. -/
theorem f2_apply (c : Dev nD) (i : Fin 10000) :
    (dat0 (V1 m ρ) c).arrAt 8 cfg0.N (ix2 i 0)
      = score (proj (cur2 (m ((c : Thread nD τ).loc main_arg0))) (cur2 (m ((c : Thread nD τ).loc main_arg2))))
          (row0 (m ((c : Thread nD τ).loc main_arg5))) (m ((c : Thread nD τ).loc main_arg6) (ix1 0)) i := by
  rw [f2_final (V1 m ρ) c]
  unfold Gf
  rw [V1_feat, V1_Wt, V1_arT, V1_br]
  show score _ _ _ i = _
  congr 1
  · congr 1; funext d k; exact Wt_apply _ k d
  · funext d; exact aT_apply _ d
  · exact b11_apply _

/-! ## What region 1 finds: region 0's outputs and the second host stretch read back -/

theorem V3_f1 (c : Dev nD) : V3 m ρ c main_call0_v5_1 = W2 m ρ c (Proc.devRef .tc main_call0_v5_1) := by
  show StableHlo.after hostOps1 (W2 m ρ c) (Proc.devRef .tc main_call0_v5_1) = _
  after_results

theorem V3_seq (c : Dev nD) : V3 m ρ c main_call0_v5_0 = W2 m ρ c (Proc.devRef .tc main_call0_v5_0) := by
  show StableHlo.after hostOps1 (W2 m ρ c) (Proc.devRef .tc main_call0_v5_0) = _
  after_results

theorem V3_adj (c : Dev nD) : V3 m ρ c main_arg1 = W2 m ρ c (Proc.devRef .tc main_arg1) := by
  show StableHlo.after hostOps1 (W2 m ρ c) (Proc.devRef .tc main_arg1) = _
  after_results

theorem V3_f2t (c : Dev nD) :
    (V3 m ρ c main_call0_v6 : S1x10000.Idx → EReal)
      = shapeCast S1x10000 (W2 m ρ c (Proc.devRef .tc main_call0_v5_2) : S10000x1.Idx → EReal) shapeCasts_S10000x1_S1x10000 := by
  show StableHlo.after hostOps1 (W2 m ρ c) (Proc.devRef .tc main_call0_v6) = _
  after_results
  rfl

theorem V3_bias (c : Dev nD) :
    (V3 m ρ c main_call0_v7 : S1x128.Idx → EReal)
      = shapeCast S1x128 (W2 m ρ c (Proc.devRef .tc main_arg7) : S128.Idx → EReal) shapeCasts_S128_S1x128 := by
  show StableHlo.after hostOps1 (W2 m ρ c) (Proc.devRef .tc main_call0_v7) = _
  after_results
  rfl

/-- Region 0 leaves the adjacency as launched: it is none of its arrays, and the first stretch does not write it. -/
theorem W2_adj (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

/-- Likewise the bias. -/
theorem W2_bias (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-- A column relaid as a row: the row's entry (0, j) is the column's entry (j, 0) (both sit at row-major position j). -/
theorem colAsRow_apply (x : S10000x1.Idx → EReal) (jj : Fin 10000) :
    shapeCast S1x10000 x shapeCasts_S10000x1_S1x10000 (ix2 0 jj) = x (ix2 jj 0) :=
  shapeCast_apply x _ (ix2 0 jj) (ix2 jj 0) (by
    rw [Shape.rowMajor_val_two, Shape.rowMajor_val_two]
    show jj.val * 1 + 0 = 0 * 10000 + jj.val
    omega)

/-- A vector relaid as a one-row matrix: the entry (0, d) is the vector's entry d. -/
theorem vecAsRow_apply (x : S128.Idx → EReal) (d : Fin 128) :
    shapeCast S1x128 x shapeCasts_S128_S1x128 (ix2 0 d) = x (ix1 d) :=
  shapeCast_apply x _ (ix2 0 d) (ix1 d) (by
    rw [Shape.rowMajor_val_one, Shape.rowMajor_val_two]
    show d.val = 0 * 128 + d.val
    omega)

/-! ## The result -/

/-- Region 1's output function read with its five arrays named entry by entry. -/
theorem Gout_of (adj : Vec Ideal S10000x10000 .f32) (f1 : Vec Ideal S10000x1 .f32) (f2t : Vec Ideal S1x10000 .f32)
    (sq : Vec Ideal S10000x128 .f32) (b : Vec Ideal S1x128 .f32)
    (F1 F2 : Fin 10000 → EReal) (ADJ : Fin 10000 → Fin 10000 → EReal) (SQ : Fin 10000 → Fin 128 → EReal) (B : Fin 128 → EReal)
    (h1 : ∀ i, f1 (ix2 i 0) = F1 i) (h2 : ∀ jj, f2t (ix2 0 jj) = F2 jj) (h3 : ∀ i jj, adj (ix2 i jj) = ADJ i jj)
    (h4 : ∀ jj d, sq (ix2 jj d) = SQ jj d) (h5 : ∀ d, b (ix2 0 d) = B d) (j : S10000x128.Idx) :
    Gout adj f1 f2t sq b j = eluK (aggK (xK F1 F2 ADJ) SQ B (j 0) (j 1)) := by
  unfold Gout
  rw [show (fun i => f1 (ix2 i 0)) = F1 from funext h1, show (fun jj => f2t (ix2 0 jj)) = F2 from funext h2,
    show cur2 adj = ADJ from funext fun i => funext fun jj => h3 i jj,
    show cur2 sq = SQ from funext fun jj => funext fun d => h4 jj d,
    show (fun d => b (ix2 0 d)) = B from funext h5]

/-- The result buffer's final contents are the kernel's spelling of the attention head of the launch arguments. -/
theorem out_value (c : Dev nD) :
    W4 m ρ c (Proc.devRef .tc main_v0)
      = outKA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W4_arr m ρ c 5).trans ?_
  rw [out_final (V3 m ρ) c]
  funext j
  refine (Gout_of _ _ _ _ _
    (score (proj (cur2 (m ((c : Thread nD τ).loc main_arg0))) (cur2 (m ((c : Thread nD τ).loc main_arg2)))) (row0 (m ((c : Thread nD τ).loc main_arg3))) ((m ((c : Thread nD τ).loc main_arg4)) (ix1 0)))
    (score (proj (cur2 (m ((c : Thread nD τ).loc main_arg0))) (cur2 (m ((c : Thread nD τ).loc main_arg2)))) (row0 (m ((c : Thread nD τ).loc main_arg5))) ((m ((c : Thread nD τ).loc main_arg6)) (ix1 0)))
    (cur2 (m ((c : Thread nD τ).loc main_arg1))) (proj (cur2 (m ((c : Thread nD τ).loc main_arg0))) (cur2 (m ((c : Thread nD τ).loc main_arg2)))) (cur1 (m ((c : Thread nD τ).loc main_arg7))) ?_ ?_ ?_ ?_ ?_ j).trans ?_
  · intro i
    rw [V3_f1]
    exact (congrFun (W2_arr m ρ c 7) (ix2 i 0)).trans (f1_apply m ρ c i)
  · intro jj
    rw [V3_f2t]
    refine (colAsRow_apply _ jj).trans ?_
    exact (congrFun (W2_arr m ρ c 8) (ix2 jj 0)).trans (f2_apply m ρ c jj)
  · intro i jj
    rw [V3_adj, W2_adj]
  · intro jj d
    rw [V3_seq]
    exact (congrFun (W2_arr m ρ c 6) (ix2 jj d)).trans (seq_apply m ρ c jj d)
  · intro d
    rw [V3_bias]
    refine (vecAsRow_apply _ d).trans ?_
    rw [W2_bias]
  · rfl

end Cert.KernelIdeal.KGlue

end
-- ==== Proof.RefTerm.lean ====
/-
  The reference's result as ONE term of its argument arrays: its host operations composed in order, cut into the
  stages of the computation (the projection, the two scores, the mask, the pairwise logits, the leaky slope, the row
  maximum, the shifted exponentials, the normalised coefficients, the aggregation with the bias, elu). Each stage is the
  operations of the printed program, in its order, with its shape facts; nothing is evaluated here.
-/
import proofs.«122394_g61658550502133_cont_9to1_m_383_3_alg».proof.Proof.Gen.ReferenceIdeal

noncomputable section

namespace Cert.ReferenceIdeal.RefValue

open Cert.ReferenceIdeal Idealize.ShloMosaic Cert.ReferenceIdeal.Facts₀

variable {F : FTy → Type} [FloatOps F]

/-- feat · Wᵀ. -/
def tSeq (feat : FVec F S10000x128 .f32) (W : FVec F S128x128 .f32) : FVec F S10000x128 .f32 :=
  Host.dotGeneral dot_S10000x128_S128x128_S10000x128_1_0_0_1_n_n none feat
    (transpose S128x128 [1, 0] W transposes_S128x128_S128x128_1_0)

/-- seq · aᵀ + b, a column. -/
def tScore (sq : FVec F S10000x128 .f32) (a : FVec F S1x128 .f32) (b : FVec F S1 .f32) : FVec F S10000x1 .f32 :=
  addf (Host.dotGeneral dot_S10000x128_S128x1_S10000x1_1_0_0_1_n_n none sq (transpose S128x1 [1, 0] a transposes_S1x128_S128x1_1_0))
    (broadcastInDim S10000x1 ![0, 1] bcast_S1x1_S10000x1_0_1 (broadcastInDim S1x1 ![1] bcast_S1_S1x1_1 b))

/-- −10⁹ · (1 − adj). -/
def tMask (adj : FVec F S10000x10000 .f32) : FVec F S10000x10000 .f32 :=
  mulf (broadcastInDim S10000x10000 ![] bcast_S_S10000x10000 (constant S_ .f32 0xCE6E6B28#32))
    (subf (broadcastInDim S10000x10000 ![] bcast_S_S10000x10000 (constant S_ .f32 0x3F800000#32)) adj)

/-- f₁ i + f₂ j: the first score down the rows, the second (transposed) along the columns. -/
def tLogit (f1 f2 : FVec F S10000x1 .f32) : FVec F S10000x10000 .f32 :=
  addf (broadcastInDim S10000x10000 ![0, 1] bcast_S10000x1_S10000x10000_0_1 f1)
    (broadcastInDim S10000x10000 ![0, 1] bcast_S1x10000_S10000x10000_0_1
      (transpose S1x10000 [1, 0] f2 transposes_S10000x1_S1x10000_1_0))

/-- The leaky slope by a select on the sign. -/
def tLeaky (l : FVec F S10000x10000 .f32) : FVec F S10000x10000 .f32 :=
  select (cmpf .ogt l (broadcastInDim S10000x10000 ![] bcast_S_S10000x10000 (constant S_ .f32 0x00000000#32))) l
    (mulf (broadcastInDim S10000x10000 ![] bcast_S_S10000x10000 (constant S_ .f32 0x3E4CCCCD#32)) l)

/-- Each row's maximum, joined once more with −∞. -/
def tRowMax (x : FVec F S10000x10000 .f32) : FVec F S10000 .f32 :=
  maximumf (broadcastInDim S10000 ![] bcast_S_S10000 (constant S_ .f32 0xFF800000#32))
    (Host.reduce FloatOps.maximumf x (constant S_ .f32 0xFF800000#32) reducesTo_S10000x10000_S10000_d1 h_S_)

/-- exp (x − the row's maximum). -/
def tExp (x : FVec F S10000x10000 .f32) : FVec F S10000x10000 .f32 :=
  Host.exp (subf x (broadcastInDim S10000x10000 ![0, 1] bcast_S10000x1_S10000x10000_0_1
    (broadcastInDim S10000x1 ![0] bcast_S10000_S10000x1_0 (tRowMax x))))

/-- Each entry over its row's sum. -/
def tCoef (e : FVec F S10000x10000 .f32) : FVec F S10000x10000 .f32 :=
  Host.divf e (broadcastInDim S10000x10000 ![0, 1] bcast_S10000x1_S10000x10000_0_1
    (broadcastInDim S10000x1 ![0] bcast_S10000_S10000x1_0
      (Host.reduceAdd e (constant S_ .f32 0x00000000#32) reducesTo_S10000x10000_S10000_d1 h_S_)))

/-- coef · seq + bias. -/
def tAgg (coef : FVec F S10000x10000 .f32) (sq : FVec F S10000x128 .f32) (bias : FVec F S128 .f32) : FVec F S10000x128 .f32 :=
  addf (Host.dotGeneral dot_S10000x10000_S10000x128_S10000x128_1_0_0_1_n_n none coef sq)
    (broadcastInDim S10000x128 ![0, 1] bcast_S1x128_S10000x128_0_1 (broadcastInDim S1x128 ![1] bcast_S128_S1x128_1 bias))

/-- elu: o where o > 0, else 1 · expm1 (o where it is not positive, 0 where it is). -/
def tElu (o : FVec F S10000x128 .f32) : FVec F S10000x128 .f32 :=
  select (cmpf .ogt o (broadcastInDim S10000x128 ![] bcast_S_S10000x128 (constant S_ .f32 0x00000000#32))) o
    (mulf (broadcastInDim S10000x128 ![] bcast_S_S10000x128 (constant S_ .f32 0x3F800000#32))
      (Host.expm1 (select (cmpf .ogt o (broadcastInDim S10000x128 ![] bcast_S_S10000x128 (constant S_ .f32 0x00000000#32)))
        (broadcastInDim S10000x128 ![] bcast_S_S10000x128 (id (constant S_ .f32 0x00000000#32))) o)))

/-- The reference's result from its eight arguments. -/
def refTerm (feat : FVec F S10000x128 .f32) (adj : FVec F S10000x10000 .f32) (W : FVec F S128x128 .f32)
    (al : FVec F S1x128 .f32) (bl : FVec F S1 .f32) (ar : FVec F S1x128 .f32) (br : FVec F S1 .f32)
    (bias : FVec F S128 .f32) : FVec F S10000x128 .f32 :=
  tElu (tAgg (tCoef (tExp (addf (tLeaky (tLogit (tScore (tSeq feat W) al bl) (tScore (tSeq feat W) ar br))) (tMask adj))))
    (tSeq feat W) bias)

end Cert.ReferenceIdeal.RefValue

end
-- ==== Proof.RefRun.lean ====
/-
  The reference's run: every weakly fair execution of its @main ends with the result buffer at the composed term of the
  launch contents of the arguments, the arguments unchanged.

  @main is a straight line once its two calls are unfolded: @_where is one select; @elu is eleven operations of its own
  around two further calls, @_where_0 (the scalar zero converted to its own type, its broadcast, a select) and @_where_1
  (a select). Listed in execution order that is sixty-three host operations, each writing one buffer that no later one
  writes again. The run of such a list leaves every buffer at the fold of the operations' results over the launch
  contents; read at the result buffer the fold is the operations composed, which is `refTerm`, and read at an argument
  it is the launch contents, since no operation writes an argument.
-/
import proofs.«122394_g61658550502133_cont_9to1_m_383_3_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- The sixty-three operations, in execution order: @main's first twenty-eight (the projection, the two scores, the
    mask, the pairwise logits, the comparison with zero and the scaled logits), @_where's select, @main's next nineteen
    (the masked logits, the row maximum joined with −∞, the shifted exponentials, the row sums, the quotient, the
    aggregation with the bias), then @elu's fifteen: the comparison with zero twice, @_where_0's three, expm1, the
    product with one, @_where_1's select. -/
abbrev ops : List (HloOp τ sig (Elt F)) :=
  [
    unary main_arg2 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v2 ((transpose S128x1 [1, 0] · transposes_S1x128_S128x1_1_0) : (⟨S1x128, .f32⟩ : BufTy).Contents (Elt F) → (⟨S128x1, .f32⟩ : BufTy).Contents (Elt F)),
    binary main_v1 main_v2 main_v3 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg4 main_v4 (broadcastInDim S1x1 ![1] bcast_S1_S1x1_1 : (⟨S1, .f32⟩ : BufTy).Contents (Elt F) → (⟨S1x1, .f32⟩ : BufTy).Contents (Elt F)),
    unary main_v4 main_v5 (broadcastInDim S10000x1 ![0, 1] bcast_S1x1_S10000x1_0_1 : (⟨S1x1, .f32⟩ : BufTy).Contents (Elt F) → (⟨S10000x1, .f32⟩ : BufTy).Contents (Elt F)),
    binary main_v3 main_v5 main_v6 (addf : (⟨S10000x1, .f32⟩ : BufTy).Contents (Elt F) → (⟨S10000x1, .f32⟩ : BufTy).Contents (Elt F) → (⟨S10000x1, .f32⟩ : BufTy).Contents (Elt F)),
    unary main_arg5 main_v7 ((transpose S128x1 [1, 0] · transposes_S1x128_S128x1_1_0) : (⟨S1x128, .f32⟩ : BufTy).Contents (Elt F) → (⟨S128x1, .f32⟩ : BufTy).Contents (Elt F)),
    binary main_v1 main_v7 main_v8 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg6 main_v9 (broadcastInDim S1x1 ![1] bcast_S1_S1x1_1 : (⟨S1, .f32⟩ : BufTy).Contents (Elt F) → (⟨S1x1, .f32⟩ : BufTy).Contents (Elt F)),
    unary main_v9 main_v10 (broadcastInDim S10000x1 ![0, 1] bcast_S1x1_S10000x1_0_1 : (⟨S1x1, .f32⟩ : BufTy).Contents (Elt F) → (⟨S10000x1, .f32⟩ : BufTy).Contents (Elt F)),
    binary main_v8 main_v10 main_v11 (addf : (⟨S10000x1, .f32⟩ : BufTy).Contents (Elt F) → (⟨S10000x1, .f32⟩ : BufTy).Contents (Elt F) → (⟨S10000x1, .f32⟩ : BufTy).Contents (Elt F)),
    nullary main_cst (constant S_ .f32 0x3F800000#32),
    unary main_cst main_v12 (broadcastInDim S10000x10000 ![] bcast_S_S10000x10000 : (⟨S_, .f32⟩ : BufTy).Contents (Elt F) → (⟨S10000x10000, .f32⟩ : BufTy).Contents (Elt F)),
    binary main_v12 main_arg1 main_v13 (subf : (⟨S10000x10000, .f32⟩ : BufTy).Contents (Elt F) → (⟨S10000x10000, .f32⟩ : BufTy).Contents (Elt F) → (⟨S10000x10000, .f32⟩ : BufTy).Contents (Elt F)),
    nullary main_cst_0 (constant S_ .f32 0xCE6E6B28#32),
    unary main_cst_0 main_v14 (broadcastInDim S10000x10000 ![] bcast_S_S10000x10000 : (⟨S_, .f32⟩ : BufTy).Contents (Elt F) → (⟨S10000x10000, .f32⟩ : BufTy).Contents (Elt F)),
    binary main_v14 main_v13 main_v15 (mulf : (⟨S10000x10000, .f32⟩ : BufTy).Contents (Elt F) → (⟨S10000x10000, .f32⟩ : BufTy).Contents (Elt F) → (⟨S10000x10000, .f32⟩ : BufTy).Contents (Elt F)),
    unary main_v11 main_v16 ((transpose S1x10000 [1, 0] · transposes_S10000x1_S1x10000_1_0) : (⟨S10000x1, .f32⟩ : BufTy).Contents (Elt F) → (⟨S1x10000, .f32⟩ : BufTy).Contents (Elt F)),
    unary main_v6 main_v17 (broadcastInDim S10000x10000 ![0, 1] bcast_S10000x1_S10000x10000_0_1 : (⟨S10000x1, .f32⟩ : BufTy).Contents (Elt F) → (⟨S10000x10000, .f32⟩ : BufTy).Contents (Elt F)),
    unary main_v16 main_v18 (broadcastInDim S10000x10000 ![0, 1] bcast_S1x10000_S10000x10000_0_1 : (⟨S1x10000, .f32⟩ : BufTy).Contents (Elt F) → (⟨S10000x10000, .f32⟩ : BufTy).Contents (Elt F)),
    binary main_v17 main_v18 main_v19 (addf : (⟨S10000x10000, .f32⟩ : BufTy).Contents (Elt F) → (⟨S10000x10000, .f32⟩ : BufTy).Contents (Elt F) → (⟨S10000x10000, .f32⟩ : BufTy).Contents (Elt F)),
    nullary main_cst_1 (constant S_ .f32 0x00000000#32),
    unary main_cst_1 main_v20 (broadcastInDim S10000x10000 ![] bcast_S_S10000x10000 : (⟨S_, .f32⟩ : BufTy).Contents (Elt F) → (⟨S10000x10000, .f32⟩ : BufTy).Contents (Elt F)),
    binary main_v19 main_v20 main_v21 (cmpf .ogt : (⟨S10000x10000, .f32⟩ : BufTy).Contents (Elt F) → (⟨S10000x10000, .f32⟩ : BufTy).Contents (Elt F) → (⟨S10000x10000, .i1⟩ : BufTy).Contents (Elt F)),
    nullary main_cst_2 (constant S_ .f32 0x3E4CCCCD#32),
    unary main_cst_2 main_v22 (broadcastInDim S10000x10000 ![] bcast_S_S10000x10000 : (⟨S_, .f32⟩ : BufTy).Contents (Elt F) → (⟨S10000x10000, .f32⟩ : BufTy).Contents (Elt F)),
    binary main_v22 main_v19 main_v23 (mulf : (⟨S10000x10000, .f32⟩ : BufTy).Contents (Elt F) → (⟨S10000x10000, .f32⟩ : BufTy).Contents (Elt F) → (⟨S10000x10000, .f32⟩ : BufTy).Contents (Elt F)),
    TRef.ternary (.of main_v21) (.of main_v19) (.of main_v23) main_call0.v0 select,
    binary main_v24 main_v15 main_v25 (addf : (⟨S10000x10000, .f32⟩ : BufTy).Contents (Elt F) → (⟨S10000x10000, .f32⟩ : BufTy).Contents (Elt F) → (⟨S10000x10000, .f32⟩ : BufTy).Contents (Elt F)),
    nullary main_cst_3 (constant S_ .f32 0xFF800000#32),
    binary main_v25 main_cst_3 main_v26 ((fun x v => Host.reduce FloatOps.maximumf x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    nullary main_cst_4 (constant S_ .f32 0xFF800000#32),
    unary main_cst_4 main_v27 (broadcastInDim S10000 ![] bcast_S_S10000 : (⟨S_, .f32⟩ : BufTy).Contents (Elt F) → (⟨S10000, .f32⟩ : BufTy).Contents (Elt F)),
    binary main_v27 main_v26 main_v28 (maximumf : (⟨S10000, .f32⟩ : BufTy).Contents (Elt F) → (⟨S10000, .f32⟩ : BufTy).Contents (Elt F) → (⟨S10000, .f32⟩ : BufTy).Contents (Elt F)),
    unary main_v28 main_v29 (broadcastInDim S10000x1 ![0] bcast_S10000_S10000x1_0 : (⟨S10000, .f32⟩ : BufTy).Contents (Elt F) → (⟨S10000x1, .f32⟩ : BufTy).Contents (Elt F)),
    unary main_v29 main_v30 (broadcastInDim S10000x10000 ![0, 1] bcast_S10000x1_S10000x10000_0_1 : (⟨S10000x1, .f32⟩ : BufTy).Contents (Elt F) → (⟨S10000x10000, .f32⟩ : BufTy).Contents (Elt F)),
    binary main_v25 main_v30 main_v31 (subf : (⟨S10000x10000, .f32⟩ : BufTy).Contents (Elt F) → (⟨S10000x10000, .f32⟩ : BufTy).Contents (Elt F) → (⟨S10000x10000, .f32⟩ : BufTy).Contents (Elt F)),
    unary main_v31 main_v32 (Host.exp : (⟨S10000x10000, .f32⟩ : BufTy).Contents (Elt F) → (⟨S10000x10000, .f32⟩ : BufTy).Contents (Elt F)),
    nullary main_cst_5 (constant S_ .f32 0x00000000#32),
    binary main_v32 main_cst_5 main_v33 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v33 main_v34 (broadcastInDim S10000x1 ![0] bcast_S10000_S10000x1_0 : (⟨S10000, .f32⟩ : BufTy).Contents (Elt F) → (⟨S10000x1, .f32⟩ : BufTy).Contents (Elt F)),
    unary main_v34 main_v35 (broadcastInDim S10000x10000 ![0, 1] bcast_S10000x1_S10000x10000_0_1 : (⟨S10000x1, .f32⟩ : BufTy).Contents (Elt F) → (⟨S10000x10000, .f32⟩ : BufTy).Contents (Elt F)),
    binary main_v32 main_v35 main_v36 (Host.divf : (⟨S10000x10000, .f32⟩ : BufTy).Contents (Elt F) → (⟨S10000x10000, .f32⟩ : BufTy).Contents (Elt F) → (⟨S10000x10000, .f32⟩ : BufTy).Contents (Elt F)),
    binary main_v36 main_v1 main_v37 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg7 main_v38 (broadcastInDim S1x128 ![1] bcast_S128_S1x128_1 : (⟨S128, .f32⟩ : BufTy).Contents (Elt F) → (⟨S1x128, .f32⟩ : BufTy).Contents (Elt F)),
    unary main_v38 main_v39 (broadcastInDim S10000x128 ![0, 1] bcast_S1x128_S10000x128_0_1 : (⟨S1x128, .f32⟩ : BufTy).Contents (Elt F) → (⟨S10000x128, .f32⟩ : BufTy).Contents (Elt F)),
    binary main_v37 main_v39 main_v40 (addf : (⟨S10000x128, .f32⟩ : BufTy).Contents (Elt F) → (⟨S10000x128, .f32⟩ : BufTy).Contents (Elt F) → (⟨S10000x128, .f32⟩ : BufTy).Contents (Elt F)),
    TRef.nullary main_call1.cst (constant S_ .f32 0x00000000#32),
    TRef.unary main_call1.cst main_call1.v0 (broadcastInDim S10000x128 ![] bcast_S_S10000x128),
    TRef.binary (.of main_v40) main_call1.v0 main_call1.v1 (cmpf .ogt),
    TRef.nullary main_call1.cst_0 (constant S_ .f32 0x00000000#32),
    TRef.unary main_call1.cst_0 main_call1.v2 (broadcastInDim S10000x128 ![] bcast_S_S10000x128),
    TRef.binary (.of main_v40) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S10000x128 ![] bcast_S_S10000x128),
    TRef.ternary main_call1.v3 main_call1.call0.v1 (.of main_v40) main_call1.call0.v2 select,
    TRef.unary main_call1.call0.v2 main_call1.v5 Host.expm1,
    TRef.nullary main_call1.cst_2 (constant S_ .f32 0x3F800000#32),
    TRef.unary main_call1.cst_2 main_call1.v6 (broadcastInDim S10000x128 ![] bcast_S_S10000x128),
    TRef.binary main_call1.v6 main_call1.v5 main_call1.v7 mulf,
    TRef.ternary main_call1.v1 (.of main_v40) main_call1.v7 main_call1.call1.v0 select ]

-- sixty-three sequenced steps re-associated: one level of recursion per step
set_option maxRecDepth 2048 in
/-- @main is that straight line: the four functions' definitions unfolded at their calls and the call records at their
    fields, both sides are one chain of host steps once sequencing is reassociated. -/
theorem main_eq (c : Dev nD) : main (F := F) c = seq ops := by
  simp only [main, fn_where.body, fn_elu.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig :=
  ⟨
    unary_bufs_sub .., binary_bufs_sub .., unary_bufs_sub .., binary_bufs_sub .., unary_bufs_sub .., unary_bufs_sub ..,
    binary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- From any memory with zero counters: every weakly fair execution of @main terminates, and every final state has each
    buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.exp Host.expm1 Host.divf transpose broadcastInDim in
set_option maxRecDepth 8192 in
set_option maxHeartbeats 400000 in
/-- The fold read at the result buffer is `refTerm` of the valuation at the eight arguments. Each operation's result
    at its own buffer is its function of its operands' values and at any other buffer what was there, so the fold
    unrolls to the operations composed; the typed references of the called functions move a value along the equality
    of the buffer's type with the value's, which at a literal buffer is the identity. What is left is `refTerm` with
    its stages unfolded, term for term, @_where_0's conversion of the scalar zero being the `id` that `tElu` writes.
    The reductions, the elementwise transcendental maps, the transposes and the broadcasts stay folded meanwhile:
    their bodies range over the elements of full-size arrays and the equation never looks inside them. -/
theorem out_eq (V : Valuation τ sig (Elt F)) :
    after ops V (main_v41 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  unfold refTerm tElu tAgg tCoef tExp tRowMax tLeaky tLogit tMask tScore tSeq
  rfl

/-! No operation writes an argument: read there, the fold is the valuation itself. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  exact (θ_run defs _ _).mono (fun _ h c => ⟨(h c main_v41).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_main m ρ)

end Cert.ReferenceIdeal.RefValue

end
-- ==== Proof.RefRead.lean ====
/-
  The reference's composed term read at one entry: it is the reference's spelling of the attention head.

  Each stage of the reference is read at explicit coordinates. The three products are plain matrix products, so an entry is
  the sum over the contracted coordinate of the products of the entries, the right operand of the first two read through a
  transpose; a broadcast reads its operand at the coordinates it keeps; the row maximum is the fold of max from −∞ over the
  row's entries, joined once more with −∞; the row sum starts from 0; the pointwise operations read through entry by
  entry. Composed, the entry (i, d) of the reference's result is elu of the softmax-weighted sum of the projected features
  plus the bias, in the reference's own arrangement.
-/
import proofs.«122394_g61658550502133_cont_9to1_m_383_3_alg».proof.Proof.RefTerm
import proofs.«122394_g61658550502133_cont_9to1_m_383_3_alg».proof.Proof.AttnSpec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.ReferenceIdeal.RefValue

open Cert.ReferenceIdeal Idealize.ShloMosaic Idealize.ShloMosaic.ValueIdx Cert.AttnSpec
open scoped BigOperators

namespace Entry

/-! ## The three products' dimension numbers are the plain matrix product's -/

theorem dotSeq_eq : dot_S10000x128_S128x128_S10000x128_1_0_0_1_n_n = DotDims.plain 10000 128 128 := rfl
theorem dotScore_eq : dot_S10000x128_S128x1_S10000x1_1_0_0_1_n_n = DotDims.plain 10000 128 1 := rfl
theorem dotAgg_eq : dot_S10000x10000_S10000x128_S10000x128_1_0_0_1_n_n = DotDims.plain 10000 10000 128 := rfl

/-! ## Broadcasts read at an index -/

section Bcast
variable {α : Type}

/-- A scalar broadcast to any shape reads the scalar everywhere. -/
theorem bcast_scalar_apply {t : Shape} (h : S_.BroadcastsInDim t (![] : Fin 0 → Fin t.rank)) (x : S_.Idx → α) (j : t.Idx) :
    broadcastInDim t ![] h x j = x ix0 :=
  broadcastInDim_apply _ h x j ix0 fun a => a.elim0

/-- A column [a, 1] broadcast along the rows of [a, b] reads, at (p, c), the column at p. -/
theorem bcast_col_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A row [1, b] broadcast down the columns of [a, b] reads, at (p, c), the row at c. -/
theorem bcast_row_apply {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector [a] made a column [a, 1] reads, at (p, 0), the vector at p. -/
theorem bcast_vec_col_apply {a : ℕ} (h : (⟨1, ![a]⟩ : Shape).BroadcastsInDim ⟨2, ![a, 1]⟩ (![0] : Fin 1 → Fin 2))
    (x : (⟨1, ![a]⟩ : Shape).Idx → α) (p : Fin a) (c : Fin 1) :
    broadcastInDim ⟨2, ![a, 1]⟩ ![0] h x (ix2 p c) = x (ix1 p) := by
  refine broadcastInDim_apply _ h x (ix2 p c) (ix1 p) fun ax => ?_
  match ax with
  | ⟨0, _⟩ =>
    show p.val = if a = 1 then 0 else p.val
    split
    · have := p.isLt; omega
    · rfl

/-- A vector [b] made a row [1, b] reads, at (0, c), the vector at c. -/
theorem bcast_vec_row_apply {b : ℕ} (h : (⟨1, ![b]⟩ : Shape).BroadcastsInDim ⟨2, ![1, b]⟩ (![1] : Fin 1 → Fin 2))
    (x : (⟨1, ![b]⟩ : Shape).Idx → α) (p : Fin 1) (c : Fin b) :
    broadcastInDim ⟨2, ![1, b]⟩ ![1] h x (ix2 p c) = x (ix1 c) := by
  refine broadcastInDim_apply _ h x (ix2 p c) (ix1 c) fun ax => ?_
  match ax with
  | ⟨0, _⟩ =>
    show c.val = if b = 1 then 0 else c.val
    split
    · have := c.isLt; omega
    · rfl

end Bcast

/-! ## The stages read at an entry -/

theorem tSeq_apply (feat : FVec Ideal S10000x128 .f32) (W : FVec Ideal S128x128 .f32) (i : Fin 10000) (d : Fin 128) :
    tSeq (F := Ideal) feat W (ix2 i d) = proj (cur2 feat) (cur2 W) i d := by
  unfold tSeq proj
  rw [dotSeq_eq, StackMember.dotGeneral_plain_apply]
  refine Finset.sum_congr rfl fun c _ => ?_
  rw [transpose_ix2_apply]

theorem tScore_apply (sq : FVec Ideal S10000x128 .f32) (a : FVec Ideal S1x128 .f32) (b : FVec Ideal S1 .f32) (i : Fin 10000)
    (c : Fin 1) :
    tScore (F := Ideal) sq a b (ix2 i c) = score (cur2 sq) (row0 a) (b (ix1 0)) i := by
  obtain rfl : c = 0 := Fin.eq_zero c
  unfold tScore score
  rw [addf_apply, dotScore_eq, StackMember.dotGeneral_plain_apply, bcast_row_apply, bcast_vec_row_apply]
  refine congrArg (· + b (ix1 0)) (Finset.sum_congr rfl fun k _ => ?_)
  rw [transpose_ix2_apply]

theorem tMask_apply (adj : FVec Ideal S10000x10000 .f32) (i j : Fin 10000) :
    tMask (F := Ideal) adj (ix2 i j) = nbig * (one - adj (ix2 i j)) := by
  unfold tMask
  rw [mulf_apply, subf_apply, bcast_scalar_apply, bcast_scalar_apply, constant_apply, constant_apply]

theorem tLogit_apply (f1 f2 : FVec Ideal S10000x1 .f32) (i j : Fin 10000) :
    tLogit (F := Ideal) f1 f2 (ix2 i j) = f1 (ix2 i 0) + f2 (ix2 j 0) := by
  unfold tLogit
  rw [addf_apply, bcast_col_apply, bcast_row_apply, transpose_ix2_apply]

theorem tLeaky_apply (l : FVec Ideal S10000x10000 .f32) (i j : Fin 10000) :
    tLeaky (F := Ideal) l (ix2 i j)
      = Scalar.select (Ideal.cmp .ogt (l (ix2 i j)) z0) (l (ix2 i j)) (leak * l (ix2 i j)) := by
  unfold tLeaky
  rw [select_apply, cmpf_apply, mulf_apply, bcast_scalar_apply, bcast_scalar_apply, constant_apply, constant_apply,
    Ideal.cmpf_def]

/-! ## The two row reductions -/

/-- The reduced index i with column k put back is (i, k). -/
theorem lift_row (h : S10000x10000.Reduces [1] S10000) (i : Fin 10000) (k : Fin (S10000x10000.size 1)) :
    h.lift (ix1 i) k = ix2 i (⟨k.val, k.isLt⟩ : Fin 10000) := by
  funext c; apply Fin.ext
  fin_cases c <;> rfl

theorem reduces_row : S10000x10000.Reduces [1] S10000 := by decide

theorem tRowMax_apply (x : FVec Ideal S10000x10000 .f32) (i : Fin 10000) :
    tRowMax (F := Ideal) x (ix1 i) = max ninf (rmax (fun jj => x (ix2 i jj))) := by
  unfold tRowMax rmax
  rw [maximumf_apply, bcast_scalar_apply, constant_apply,
    Host.reduce_eq_fold_single FloatOps.maximumf x _ Facts₀.reducesTo_S10000x10000_S10000_d1 reduces_row Facts₀.h_S_]
  have hf : (x ∘ reduces_row.lift (ix1 i)) = fun k : Fin 10000 => x (ix2 i k) :=
    funext fun k => congrArg x (lift_row reduces_row i k)
  refine congrArg (max ninf) ?_
  exact congrArg (fun f => Finset.fold max ninf f (Finset.univ : Finset (Fin 10000))) hf

theorem tExp_apply (x : FVec Ideal S10000x10000 .f32) (i j : Fin 10000) :
    tExp (F := Ideal) x (ix2 i j) = Ideal.exp (x (ix2 i j) - max ninf (rmax (fun jj => x (ix2 i jj)))) := by
  unfold tExp Host.exp
  rw [Ideal.hostUnary_exp_def, subf_apply, bcast_col_apply, bcast_vec_col_apply, tRowMax_apply]

theorem tCoef_apply (e : FVec Ideal S10000x10000 .f32) (i j : Fin 10000) :
    tCoef (F := Ideal) e (ix2 i j) = Ideal.div (e (ix2 i j)) (z0 + ∑ jj : Fin 10000, e (ix2 i jj)) := by
  unfold tCoef Host.divf Host.reduceAdd
  rw [Ideal.hostDivf_def, bcast_col_apply, bcast_vec_col_apply, Ideal.hostReduceAdd_def,
    Ideal.hostReduceAdd_single Facts₀.reducesTo_S10000x10000_S10000_d1 reduces_row, constant_apply]
  refine congrArg (fun s => Ideal.div (e (ix2 i j)) (z0 + s)) ?_
  exact Finset.sum_congr rfl fun k _ => congrArg e (lift_row reduces_row i k)

theorem tAgg_apply (coef : FVec Ideal S10000x10000 .f32) (sq : FVec Ideal S10000x128 .f32) (bias : FVec Ideal S128 .f32)
    (i : Fin 10000) (d : Fin 128) :
    tAgg (F := Ideal) coef sq bias (ix2 i d) = (∑ j : Fin 10000, coef (ix2 i j) * sq (ix2 j d)) + bias (ix1 d) := by
  unfold tAgg
  rw [addf_apply, dotAgg_eq, StackMember.dotGeneral_plain_apply, bcast_row_apply, bcast_vec_row_apply]

theorem tElu_apply (o : FVec Ideal S10000x128 .f32) (i : Fin 10000) (d : Fin 128) :
    tElu (F := Ideal) o (ix2 i d) = eluR (o (ix2 i d)) := by
  unfold tElu eluR Host.expm1
  rw [select_apply, cmpf_apply, mulf_apply, Ideal.hostUnary_expm1_def, select_apply, cmpf_apply, id, bcast_scalar_apply,
    bcast_scalar_apply, constant_apply, constant_apply, Ideal.cmpf_def]

/-! ## The assembly -/

/-- The masked leaky logits, entry by entry. -/
theorem tMasked_apply (feat : FVec Ideal S10000x128 .f32) (adj : FVec Ideal S10000x10000 .f32) (W : FVec Ideal S128x128 .f32)
    (al : FVec Ideal S1x128 .f32) (bl : FVec Ideal S1 .f32) (ar : FVec Ideal S1x128 .f32) (br : FVec Ideal S1 .f32)
    (a b : Fin 10000) :
    addf (tLeaky (tLogit (tScore (tSeq (F := Ideal) feat W) al bl) (tScore (tSeq feat W) ar br))) (tMask adj) (ix2 a b)
      = xR (score (proj (cur2 feat) (cur2 W)) (row0 al) (bl (ix1 0))) (score (proj (cur2 feat) (cur2 W)) (row0 ar) (br (ix1 0)))
          (cur2 adj) a b := by
  have hS : cur2 (tSeq (F := Ideal) feat W) = proj (cur2 feat) (cur2 W) :=
    funext fun p => funext fun q => tSeq_apply feat W p q
  unfold xR
  rw [addf_apply, tLeaky_apply, tLogit_apply, tMask_apply, tScore_apply, tScore_apply, hS]

/-- From the masked logits on: the softmax coefficients against the features, the bias, elu. -/
theorem tTail_apply (X : FVec Ideal S10000x10000 .f32) (sq : FVec Ideal S10000x128 .f32) (bias : FVec Ideal S128 .f32)
    (x : Fin 10000 → Fin 10000 → EReal) (sqf : Fin 10000 → Fin 128 → EReal)
    (hx : ∀ a b, X (ix2 a b) = x a b) (hs : ∀ a b, sq (ix2 a b) = sqf a b) (i : Fin 10000) (d : Fin 128) :
    tElu (F := Ideal) (tAgg (tCoef (tExp X)) sq bias) (ix2 i d) = eluR (aggR x sqf (cur1 bias) i d) := by
  have hrow : (fun jj => X (ix2 i jj)) = x i := funext (hx i)
  have hE : ∀ b, tExp (F := Ideal) X (ix2 i b) = Ideal.exp (x i b - max ninf (rmax (x i))) := fun b => by
    rw [tExp_apply, hrow, hx]
  unfold aggR
  rw [tElu_apply, tAgg_apply]
  refine congrArg eluR (congrArg (· + bias (ix1 d)) (Finset.sum_congr rfl fun j _ => ?_))
  rw [tCoef_apply, hs, hE]
  refine congrArg (fun s => Ideal.div _ (z0 + s) * sqf j d) ?_
  exact Finset.sum_congr rfl fun b _ => hE b

end Entry

theorem refTerm_eq (feat : FVec Ideal S10000x128 .f32) (adj : FVec Ideal S10000x10000 .f32) (W : FVec Ideal S128x128 .f32)
    (al : FVec Ideal S1x128 .f32) (bl : FVec Ideal S1 .f32) (ar : FVec Ideal S1x128 .f32) (br : FVec Ideal S1 .f32)
    (bias : FVec Ideal S128 .f32) :
    refTerm (F := Ideal) feat adj W al bl ar br bias = outRA feat adj W al bl ar br bias := by
  funext j
  obtain ⟨i, d, rfl⟩ : ∃ (i : Fin 10000) (d : Fin 128), j = ix2 i d := ⟨j 0, j 1, eq_ix2 j⟩
  show _ = outR (cur2 feat) (cur2 adj) (cur2 W) (row0 al) (bl (ix1 0)) (row0 ar) (br (ix1 0)) (cur1 bias) i d
  unfold refTerm outR
  exact Entry.tTail_apply _ _ bias _ _ (Entry.tMasked_apply feat adj W al bl ar br) (Entry.tSeq_apply feat W) i d

end Cert.ReferenceIdeal.RefValue

end
-- ==== Proof.lean ====
/-
  A dense graph-attention head: the Pallas kernel against its jnp reference, on the extended reals.

  Both programs compute, for n = 10000 nodes with 128 features: the projected features seq = feat · Wᵀ; two scores per
  node f₁ = seq · a_lᵀ + b_l and f₂ = seq · a_rᵀ + b_r; the pairwise logits f₁ i + f₂ j passed through the leaky slope and
  pushed down by 10⁹ off the adjacency; a softmax along each row; the softmax-weighted mean of the neighbours' projected
  features plus a bias; elu. The kernel does it in two pipelined regions (the projection by blocks of 2000 rows, the attention
  by blocks of 200 rows, each holding a whole [200, n] slab of logits), the reference in one straight host program.

  • The kernel's result is `AttnSpec.outKA` of its arguments: region 0's three outputs are read off its blocks (KVal0), region
    1's output off its blocks (KVal1), and the arrays region 1 finds are traced back to the launch arguments through the two
    host stretches (KGlue), over the run that names the result buffer (KRun).
  • The reference's result is `AttnSpec.outRA` of its arguments: its run (RefRun) ends at the composed term of its operations
    (RefTerm), which read at an entry is that specification (RefRead).
  • The two spellings differ in three places — max l (c·l) against a select on the sign, the softmax quotient after the
    weighted sum against before it, exp (min o 0) − 1 against 1 · (exp (…) − 1) — and agree wherever every argument entry is a
    real number (AttnAlgebra): the row sum is then a real ≥ 1, so the quotient moves across the finite sum. The precondition
    says exactly that every entry is a real (FiniteArgs).
  The three frames are the generated ones (the reference's is its run with the result dropped); nothing was rewritten by
  the idealization, so `preserves` is `True`.
-/
import proofs.«122394_g61658550502133_cont_9to1_m_383_3_alg».proof.Defs
import proofs.«122394_g61658550502133_cont_9to1_m_383_3_alg».proof.Proof.Gen.Kernel
import proofs.«122394_g61658550502133_cont_9to1_m_383_3_alg».proof.Proof.Gen.Kernel.Skeleton
import proofs.«122394_g61658550502133_cont_9to1_m_383_3_alg».proof.Proof.Gen.Kernel.Launch
import proofs.«122394_g61658550502133_cont_9to1_m_383_3_alg».proof.Proof.Gen.Kernel.Points
import proofs.«122394_g61658550502133_cont_9to1_m_383_3_alg».proof.Proof.Gen.Kernel.Frame
import proofs.«122394_g61658550502133_cont_9to1_m_383_3_alg».proof.Proof.Gen.KernelIdeal
import proofs.«122394_g61658550502133_cont_9to1_m_383_3_alg».proof.Proof.Gen.KernelIdeal.Skeleton
import proofs.«122394_g61658550502133_cont_9to1_m_383_3_alg».proof.Proof.Gen.KernelIdeal.Launch
import proofs.«122394_g61658550502133_cont_9to1_m_383_3_alg».proof.Proof.Gen.KernelIdeal.Points
import proofs.«122394_g61658550502133_cont_9to1_m_383_3_alg».proof.Proof.Gen.KernelIdeal.Frame
import proofs.«122394_g61658550502133_cont_9to1_m_383_3_alg».proof.Proof.Gen.ReferenceIdeal
import proofs.«122394_g61658550502133_cont_9to1_m_383_3_alg».proof.Proof.Gen.Pre_finite_inputs
import proofs.«122394_g61658550502133_cont_9to1_m_383_3_alg».proof.Proof.AttnSpec
import proofs.«122394_g61658550502133_cont_9to1_m_383_3_alg».proof.Proof.AttnAlgebra
import proofs.«122394_g61658550502133_cont_9to1_m_383_3_alg».proof.Proof.FiniteArgs
import proofs.«122394_g61658550502133_cont_9to1_m_383_3_alg».proof.Proof.KRun
import proofs.«122394_g61658550502133_cont_9to1_m_383_3_alg».proof.Proof.KGlue
import proofs.«122394_g61658550502133_cont_9to1_m_383_3_alg».proof.Proof.RefRun
import proofs.«122394_g61658550502133_cont_9to1_m_383_3_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- At the ideal instance the kernel's result array is `outKA` of its arguments and the reference's `outRA` of the same
    arguments; with every entry finite (the precondition) these are one array. -/
theorem algebraic : Cert.algebraic_KernelIdeal_ReferenceIdeal := by
  intro m ρ m' ρ' hpre hagree
  refine ⟨fun c => Cert.AttnSpec.outKA
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KGlue.out_value m ρ c), (h c).2⟩)
      (Cert.KernelIdeal.KRun.run_out (F := Ideal) m ρ)
  · refine (θ_run Cert.ReferenceIdeal.defs _ _).mono (fun r h c => ⟨(h c).1.trans ?_, (h c).2⟩)
      (Cert.ReferenceIdeal.RefValue.run (F := Ideal) m' ρ')
    obtain ⟨e0, e1, e2, e3, e4, e5, e6, e7⟩ := hagree c
    obtain ⟨f0, f1, f2, f3, f4, f5, f6, f7⟩ := Cert.FiniteArgs.finite_of_pre _ _ _ _ _ _ _ _ (hpre c)
    rw [Cert.ReferenceIdeal.RefValue.refTerm_eq, e0, e1, e2, e3, e4, e5, e6, e7]
    exact (Cert.AttnSpec.outKA_eq_outRA _ _ _ _ _ _ _ _ f0 f1 f2 f3 f4 f5 f6 f7).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
